-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x32 : Shape := ⟨2, ![262144, 32]⟩
abbrev S262144x128 : Shape := ⟨2, ![262144, 128]⟩
abbrev S1024x128 : Shape := ⟨2, ![1024, 128]⟩
abbrev S262144 : Shape := ⟨1, ![262144]⟩
abbrev S131072 : Shape := ⟨1, ![131072]⟩
abbrev S1024 : Shape := ⟨1, ![1024]⟩
abbrev S416x1024 : Shape := ⟨2, ![416, 1024]⟩
abbrev S1024x1024 : Shape := ⟨2, ![1024, 1024]⟩
abbrev S1024x1 : Shape := ⟨2, ![1024, 1]⟩
abbrev S1 : Shape := ⟨1, ![1]⟩
abbrev S_ : Shape := ⟨0, ![]⟩

class Facts : Prop where
  bcast_S_S262144x32 : S_.BroadcastsInDim S262144x32 (![] : Fin 0 → Fin S262144x32.rank)
  reducesTo_S262144x32_S_d0_1 : S262144x32.ReducesTo [0, 1] S_
  h_S_ : 0 < S_.numel
  bcast_S_S262144x128 : S_.BroadcastsInDim S262144x128 (![] : Fin 0 → Fin S262144x128.rank)
  reducesTo_S262144x128_S_d0_1 : S262144x128.ReducesTo [0, 1] S_
  bcast_S_S1024x128 : S_.BroadcastsInDim S1024x128 (![] : Fin 0 → Fin S1024x128.rank)
  reducesTo_S1024x128_S_d0_1 : S1024x128.ReducesTo [0, 1] S_
  bcast_S_S416x1024 : S_.BroadcastsInDim S416x1024 (![] : Fin 0 → Fin S416x1024.rank)
  reducesTo_S416x1024_S_d0_1 : S416x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S1024 .f32) (main_arg11 : FVec F S1024x1 .f32) (main_arg12 : FVec F S1 .f32) (main_v33 : IVec S_ 1) : IVec S_ 1 :=
  let main_v34 : FVec F S1024 .f32 := Host.absf main_arg10
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1 .f32 := Host.absf main_arg11
  let main_cst_14 : FVec F S_ .f32 := constant S_ .f32 0x7F800000#32
  let main_v40 : FVec F S1024x1 .f32 := broadcastInDim S1024x1 ![] bcast_S_S1024x1 main_cst_14
  let main_v41 : IVec S1024x1 1 := cmpf .olt main_v39 main_v40
  let main_c_15 : IVec S_ 1 := constantI S_ 1 1#1
  let main_v42 : IVec S_ 1 := (fun x v => Host.reduce IntOp.andi x v reducesTo_S1024x1_S_d0_1 h_S_) main_v41 main_c_15
  let main_v43 : IVec S_ 1 := andi main_v38 main_v42
  let main_v44 : FVec F S1 .f32 := Host.absf main_arg12
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg7 : FVec F S416x1024 .f32) (main_arg8 : FVec F S1024 .f32) (main_arg9 : FVec F S1024x1024 .f32) (main_arg10 : FVec F S1024 .f32) (main_arg11 : FVec F S1024x1 .f32) (main_arg12 : FVec F S1 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S416x1024 .f32 := Host.absf main_arg7
  let main_cst_6 : FVec F S_ .f32 := constant S_ .f32 0x7F800000#32
  let main_v20 : FVec F S416x1024 .f32 := broadcastInDim S416x1024 ![] bcast_S_S416x1024 main_cst_6
  let main_v21 : IVec S416x1024 1 := cmpf .olt main_v19 main_v20
  let main_c_7 : IVec S_ 1 := constantI S_ 1 1#1
  let main_v22 : IVec S_ 1 := (fun x v => Host.reduce IntOp.andi x v reducesTo_S416x1024_S_d0_1 h_S_) main_v21 main_c_7
  let main_v23 : IVec S_ 1 := andi main_v18 main_v22
  let main_v24 : FVec F S1024 .f32 := Host.absf main_arg8
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg9
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg10 main_arg11 main_arg12 main_v33

def fn {F : FTy → Type} [FloatOps F] (main_arg0 : FVec F S262144x32 .f32) (main_arg1 : FVec F S262144x128 .f32) (main_arg2 : FVec F S1024x128 .f32) (main_arg3 : FVec F S1024x128 .f32) (main_arg4 : IVec S262144 32) (main_arg5 : IVec S131072 32) (main_arg6 : IVec S1024 32) (main_arg7 : FVec F S416x1024 .f32) (main_arg8 : FVec F S1024 .f32) (main_arg9 : FVec F S1024x1024 .f32) (main_arg10 : FVec F S1024 .f32) (main_arg11 : FVec F S1024x1 .f32) (main_arg12 : FVec F S1 .f32) : IVec S_ 1 :=
  let main_v0 : FVec F S262144x32 .f32 := Host.absf main_arg0
  let main_cst : FVec F S_ .f32 := constant S_ .f32 0x7F800000#32
  let main_v1 : FVec F S262144x32 .f32 := broadcastInDim S262144x32 ![] bcast_S_S262144x32 main_cst
  let main_v2 : IVec S262144x32 1 := cmpf .olt main_v0 main_v1
  let main_c : IVec S_ 1 := constantI S_ 1 1#1
  let main_v3 : IVec S_ 1 := (fun x v => Host.reduce IntOp.andi x v reducesTo_S262144x32_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg7 main_arg8 main_arg9 main_arg10 main_arg11 main_arg12 main_v13 main_v16
-- ==== Kernel.lean ====
abbrev S262144x32 : Shape := ⟨2, ![262144, 32]⟩
abbrev S262144x128 : Shape := ⟨2, ![262144, 128]⟩
abbrev S1024x128 : Shape := ⟨2, ![1024, 128]⟩
abbrev S262144 : Shape := ⟨1, ![262144]⟩
abbrev S131072 : Shape := ⟨1, ![131072]⟩
abbrev S1024 : Shape := ⟨1, ![1024]⟩
abbrev S416x1024 : Shape := ⟨2, ![416, 1024]⟩
abbrev S1024x1024 : Shape := ⟨2, ![1024, 1024]⟩
abbrev S1024x1 : Shape := ⟨2, ![1024, 1]⟩
abbrev S1 : Shape := ⟨1, ![1]⟩
abbrev S_ : Shape := ⟨0, ![]⟩
abbrev S131072x1 : Shape := ⟨2, ![131072, 1]⟩
abbrev S131072x32 : Shape := ⟨2, ![131072, 32]⟩
abbrev S131072x128 : Shape := ⟨2, ![131072, 128]⟩
abbrev S1023 : Shape := ⟨1, ![1023]⟩
abbrev S1x1 : Shape := ⟨2, ![1, 1]⟩
abbrev S131072x416 : Shape := ⟨2, ![131072, 416]⟩
abbrev S1x1024 : Shape := ⟨2, ![1, 1024]⟩
abbrev S1024x416 : Shape := ⟨2, ![1024, 416]⟩

abbrev nBuf : Space → Nat
  | .hbm => 110
  | .vmem => 10
  | .smem => 0
  | _ => 0

abbrev bufTy : (tb : Table) → Fin (tcTables nBuf tb) → BufTy
  | .hbm, ⟨0, _⟩ => ⟨S262144x32, .f32⟩
  | .hbm, ⟨1, _⟩ => ⟨S262144x128, .f32⟩
  | .hbm, ⟨2, _⟩ => ⟨S1024x128, .f32⟩
  | .hbm, ⟨3, _⟩ => ⟨S1024x128, .f32⟩
  | .hbm, ⟨4, _⟩ => ⟨S262144, .i32⟩
  | .hbm, ⟨5, _⟩ => ⟨S131072, .i32⟩
  | .hbm, ⟨6, _⟩ => ⟨S1024, .i32⟩
  | .hbm, ⟨7, _⟩ => ⟨S416x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1, .f32⟩
  | .hbm, ⟨12, _⟩ => ⟨S1, .f32⟩
  | .hbm, ⟨13, _⟩ => ⟨S_, .i32⟩
  | .hbm, ⟨14, _⟩ => ⟨S131072, .i32⟩
  | .hbm, ⟨15, _⟩ => ⟨S131072, .i1⟩
  | .hbm, ⟨16, _⟩ => ⟨S_, .i32⟩
  | .hbm, ⟨17, _⟩ => ⟨S131072, .i32⟩
  | .hbm, ⟨18, _⟩ => ⟨S131072, .i32⟩
  | .hbm, ⟨19, _⟩ => ⟨S131072, .i32⟩
  | .hbm, ⟨20, _⟩ => ⟨S131072x1, .i32⟩
  | .hbm, ⟨21, _⟩ => ⟨S131072x32, .f32⟩
  | .hbm, ⟨22, _⟩ => ⟨S_, .i32⟩
  | .hbm, ⟨23, _⟩ => ⟨S131072, .i32⟩
  | .hbm, ⟨24, _⟩ => ⟨S131072, .i1⟩
  | .hbm, ⟨25, _⟩ => ⟨S_, .i32⟩
  | .hbm, ⟨26, _⟩ => ⟨S131072, .i32⟩
  | .hbm, ⟨27, _⟩ => ⟨S131072, .i32⟩
  | .hbm, ⟨28, _⟩ => ⟨S131072, .i32⟩
  | .hbm, ⟨29, _⟩ => ⟨S131072x1, .i32⟩
  | .hbm, ⟨30, _⟩ => ⟨S131072x128, .f32⟩
  | .hbm, ⟨31, _⟩ => ⟨S_, .i32⟩
  | .hbm, ⟨32, _⟩ => ⟨S131072, .i32⟩
  | .hbm, ⟨33, _⟩ => ⟨S131072, .i1⟩
  | .hbm, ⟨34, _⟩ => ⟨S_, .i32⟩
  | .hbm, ⟨35, _⟩ => ⟨S131072, .i32⟩
  | .hbm, ⟨36, _⟩ => ⟨S131072, .i32⟩
  | .hbm, ⟨37, _⟩ => ⟨S131072, .i32⟩
  | .hbm, ⟨38, _⟩ => ⟨S131072x1, .i32⟩
  | .hbm, ⟨39, _⟩ => ⟨S131072, .i32⟩
  | .hbm, ⟨40, _⟩ => ⟨S_, .i32⟩
  | .hbm, ⟨41, _⟩ => ⟨S131072, .i32⟩
  | .hbm, ⟨42, _⟩ => ⟨S131072, .i1⟩
  | .hbm, ⟨43, _⟩ => ⟨S_, .i32⟩
  | .hbm, ⟨44, _⟩ => ⟨S131072, .i32⟩
  | .hbm, ⟨45, _⟩ => ⟨S131072, .i32⟩
  | .hbm, ⟨46, _⟩ => ⟨S131072, .i32⟩
  | .hbm, ⟨47, _⟩ => ⟨S131072x1, .i32⟩
  | .hbm, ⟨48, _⟩ => ⟨S131072x128, .f32⟩
  | .hbm, ⟨49, _⟩ => ⟨S1, .i32⟩
  | .hbm, ⟨50, _⟩ => ⟨S1023, .i32⟩
  | .hbm, ⟨51, _⟩ => ⟨S1024, .i32⟩
  | .hbm, ⟨52, _⟩ => ⟨S_, .i32⟩
  | .hbm, ⟨53, _⟩ => ⟨S1, .i32⟩
  | .hbm, ⟨54, _⟩ => ⟨S_, .i32⟩
  | .hbm, ⟨55, _⟩ => ⟨S1024, .i32⟩
  | .hbm, ⟨56, _⟩ => ⟨S_, .i32⟩
  | .hbm, ⟨57, _⟩ => ⟨S_, .i32⟩
  | .hbm, ⟨58, _⟩ => ⟨S1024, .i32⟩
  | .hbm, ⟨59, _⟩ => ⟨S_, .i32⟩
  | .hbm, ⟨60, _⟩ => ⟨S131072, .i32⟩
  | .hbm, ⟨61, _⟩ => ⟨S_, .i32⟩
  | .hbm, ⟨62, _⟩ => ⟨S1024, .i32⟩
  | .hbm, ⟨63, _⟩ => ⟨S1024, .i1⟩
  | .hbm, ⟨64, _⟩ => ⟨S_, .i32⟩
  | .hbm, ⟨65, _⟩ => ⟨S1024, .i32⟩
  | .hbm, ⟨66, _⟩ => ⟨S1024, .i32⟩
  | .hbm, ⟨67, _⟩ => ⟨S1024, .i32⟩
  | .hbm, ⟨68, _⟩ => ⟨S1024x1, .i32⟩
  | .hbm, ⟨69, _⟩ => ⟨S_, .i32⟩
  | .hbm, ⟨70, _⟩ => ⟨S1024, .i32⟩
  | .hbm, ⟨71, _⟩ => ⟨S131072, .i32⟩
  | .hbm, ⟨72, _⟩ => ⟨S_, .i32⟩
  | .hbm, ⟨73, _⟩ => ⟨S_, .i32⟩
  | .hbm, ⟨74, _⟩ => ⟨S131072, .i32⟩
  | .hbm, ⟨75, _⟩ => ⟨S_, .i32⟩
  | .hbm, ⟨76, _⟩ => ⟨S131072, .i32⟩
  | .hbm, ⟨77, _⟩ => ⟨S131072, .i32⟩
  | .hbm, ⟨78, _⟩ => ⟨S_, .i32⟩
  | .hbm, ⟨79, _⟩ => ⟨S131072, .i32⟩
  | .hbm, ⟨80, _⟩ => ⟨S131072, .i1⟩
  | .hbm, ⟨81, _⟩ => ⟨S_, .i32⟩
  | .hbm, ⟨82, _⟩ => ⟨S131072, .i32⟩
  | .hbm, ⟨83, _⟩ => ⟨S131072, .i32⟩
  | .hbm, ⟨84, _⟩ => ⟨S131072, .i32⟩
  | .hbm, ⟨85, _⟩ => ⟨S131072x1, .i32⟩
  | .hbm, ⟨86, _⟩ => ⟨S1, .i32⟩
  | .hbm, ⟨87, _⟩ => ⟨S_, .i32⟩
  | .hbm, ⟨88, _⟩ => ⟨S131072x1, .i32⟩
  | .hbm, ⟨89, _⟩ => ⟨S131072x1, .i1⟩
  | .hbm, ⟨90, _⟩ => ⟨S1x1, .i32⟩
  | .hbm, ⟨91, _⟩ => ⟨S131072x1, .i32⟩
  | .hbm, ⟨92, _⟩ => ⟨S131072x1, .i1⟩
  | .hbm, ⟨93, _⟩ => ⟨S131072x1, .i1⟩
  | .hbm, ⟨94, _⟩ => ⟨S_, .i1⟩
  | .hbm, ⟨95, _⟩ => ⟨S131072, .i1⟩
  | .hbm, ⟨96, _⟩ => ⟨S131072x128, .f32⟩
  | .hbm, ⟨97, _⟩ => ⟨S131072x128, .i1⟩
  | .hbm, ⟨98, _⟩ => ⟨S_, .f32⟩
  | .hbm, ⟨99, _⟩ => ⟨S131072x128, .f32⟩
  | .hbm, ⟨100, _⟩ => ⟨S131072x128, .f32⟩
  | .hbm, ⟨101, _⟩ => ⟨S131072x416, .f32⟩
  | .hbm, ⟨102, _⟩ => ⟨S416x1024, .bf16⟩
  | .hbm, ⟨103, _⟩ => ⟨S1024x1024, .bf16⟩
  | .hbm, ⟨104, _⟩ => ⟨S1024x1, .bf16⟩
  | .hbm, ⟨105, _⟩ => ⟨S1x1024, .f32⟩
  | .hbm, ⟨106, _⟩ => ⟨S1x1024, .f32⟩
  | .hbm, ⟨107, _⟩ => ⟨S1x1, .f32⟩
  | .hbm, ⟨108, _⟩ => ⟨S131072x1, .f32⟩
  | .hbm, ⟨109, _⟩ => ⟨S131072, .f32⟩
  | .local _ .vmem, ⟨0, _⟩ => ⟨S1024x416, .f32⟩
  | .local _ .vmem, ⟨1, _⟩ => ⟨S1024x416, .f32⟩
  | .local _ .vmem, ⟨2, _⟩ => ⟨S416x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1, .bf16⟩
  | .local _ .vmem, ⟨7, _⟩ => ⟨S1x1, .f32⟩
  | .local _ .vmem, ⟨8, _⟩ => ⟨S1024x1, .f32⟩
  | .local _ .vmem, ⟨9, _⟩ => ⟨S1024x1, .f32⟩
  | _, _ => ⟨S262144x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call0_v0 : Ref sig .tc := ⟨.hbm, 49, rfl⟩
abbrev main_call0_v1 : Ref sig .tc := ⟨.hbm, 50, rfl⟩
abbrev main_v28 : Ref sig .tc := ⟨.hbm, 51, rfl⟩
abbrev main_c_7 : Ref sig .tc := ⟨.hbm, 52, rfl⟩
abbrev main_v29 : Ref sig .tc := ⟨.hbm, 53, rfl⟩
abbrev main_c_8 : Ref sig .tc := ⟨.hbm, 54, rfl⟩
abbrev main_v30 : Ref sig .tc := ⟨.hbm, 55, rfl⟩
abbrev main_call1_call0_c : Ref sig .tc := ⟨.hbm, 56, rfl⟩
abbrev main_call1_call0_v0 : Ref sig .tc := ⟨.hbm, 57, rfl⟩
abbrev main_v31 : Ref sig .tc := ⟨.hbm, 58, rfl⟩
abbrev main_c_9 : Ref sig .tc := ⟨.hbm, 59, rfl⟩
abbrev main_v32 : Ref sig .tc := ⟨.hbm, 60, rfl⟩
abbrev main_c_10 : Ref sig .tc := ⟨.hbm, 61, rfl⟩
abbrev main_v33 : Ref sig .tc := ⟨.hbm, 62, rfl⟩
abbrev main_v34 : Ref sig .tc := ⟨.hbm, 63, rfl⟩
abbrev main_c_11 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_12 : Ref sig .tc := ⟨.hbm, 69, rfl⟩
abbrev main_v39 : Ref sig .tc := ⟨.hbm, 70, rfl⟩
abbrev main_v40 : Ref sig .tc := ⟨.hbm, 71, rfl⟩
abbrev main_call2_call0_c : Ref sig .tc := ⟨.hbm, 72, rfl⟩
abbrev main_call2_call0_v0 : Ref sig .tc := ⟨.hbm, 73, rfl⟩
abbrev main_v41 : Ref sig .tc := ⟨.hbm, 74, rfl⟩
abbrev main_c_13 : Ref sig .tc := ⟨.hbm, 75, rfl⟩
abbrev main_v42 : Ref sig .tc := ⟨.hbm, 76, rfl⟩
abbrev main_v43 : Ref sig .tc := ⟨.hbm, 77, rfl⟩
abbrev main_call3_c : Ref sig .tc := ⟨.hbm, 78, rfl⟩
abbrev main_call3_v0 : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_c_1 : Ref sig .tc := ⟨.hbm, 86, rfl⟩
abbrev main_call3_c_2 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_3 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_call3_cst : Ref sig .tc := ⟨.hbm, 98, rfl⟩
abbrev main_call3_v15 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x416 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S416x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  slices_S1024_S1_1023 : S1024.Slices ![1023] S1
  slices_S1024_S1023_0 : S1024.Slices ![0] S1023
  concatenates_S1_S1023_S1024_d0 : Shape.Concatenates [S1, S1023] S1024 0
  bcast_S_S1 : S_.BroadcastsInDim S1 (![] : Fin 0 → Fin S1.rank)
  bcast_S_S_ : S_.BroadcastsInDim S_ (![] : Fin 0 → Fin S_.rank)
  reduceWindows_S1024_S1024_w1024s1p1023_0 : S1024.ReduceWindows (![1024] : Fin 1 → Nat) ![1] ![1023] ![0] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  reduceWindows_S131072_S131072_w131072s1p131071_0 : S131072.ReduceWindows (![131072] : Fin 1 → Nat) ![1] ![131071] ![0] S131072
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  reducesTo_S131072x1_S131072_d1 : S131072x1.ReducesTo [1] S131072
  bcast_S131072_S131072x128_0 : S131072.BroadcastsInDim S131072x128 (![0] : Fin 1 → Fin S131072x128.rank)
  bcast_S_S131072x128 : S_.BroadcastsInDim S131072x128 (![] : Fin 0 → Fin S131072x128.rank)
  concatenates_S131072x32_S131072x128_S131072x128_S131072x128_S131072x416_d1 : Shape.Concatenates [S131072x32, S131072x128, S131072x128, S131072x128] S131072x416 1
  bitsLt_bf16_f32 : FTy.bits .bf16 < FTy.bits .f32
  shapeCasts_S1024_S1x1024 : S1024.ShapeCasts S1x1024
  shapeCasts_S1_S1x1 : S1.ShapeCasts S1x1
  inb_S1024x416_S1024x416_0_0 : ∀ a, (![0, 0] : Fin 2 → Nat) a + S1024x416.size a ≤ S1024x416.size a
  h_S1024x416 : 0 < S1024x416.numel
  shapeCasts_S1024x416_S1024x416 : S1024x416.ShapeCasts S1024x416
  inb_S416x1024_S416x1024_0_0 : ∀ a, (![0, 0] : Fin 2 → Nat) a + S416x1024.size a ≤ S416x1024.size a
  h_S416x1024 : 0 < S416x1024.numel
  shapeCasts_S416x1024_S416x1024 : S416x1024.ShapeCasts S416x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  shapeCasts_S131072x1_S131072 : S131072x1.ShapeCasts S131072
  gather_S262144x32_S131072x1_S131072x32_1_0_n_n_0_1_132_wf : GatherDims.WF S262144x32 S131072x1 S131072x32 [1] [0] [] [0] [] 1 ![1, 32]
  gather_S262144x128_S131072x1_S131072x128_1_0_n_n_0_1_1128_wf : GatherDims.WF S262144x128 S131072x1 S131072x128 [1] [0] [] [0] [] 1 ![1, 128]
  gather_S262144_S131072x1_S131072_n_0_n_n_0_1_1_wf : GatherDims.WF S262144 S131072x1 S131072 [] [0] [] [0] [] 1 ![1]
  gather_S1024x128_S131072x1_S131072x128_1_0_n_n_0_1_1128_wf : GatherDims.WF S1024x128 S131072x1 S131072x128 [1] [0] [] [0] [] 1 ![1, 128]
  scatter_S1024_S1_S__n_0_0_0_wf : ScatterDims.WF S1024 S1 S_ [] [0] [0] 0
  scatter_S131072_S1024x1_S1024_n_0_0_1_wf : ScatterDims.WF S131072 S1024x1 S1024 [] [0] [0] 1
  dot_S1024x416_S416x1024_S1024x1024_1_0_0_1_n_n_wf : DotDims.WF S1024x416 S416x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x1_S1024x1_1_0_0_1_n_n_wf : DotDims.WF S1024x1024 S1024x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x416.size a ≤ S131072x416.size a
  hwx0_0 : ∀ i : grid0.Coords, EltTy.bits .f32 = 32 ∨ (Rect.block (s := S131072x416) S1024x416.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S416x1024.size a ≤ S416x1024.size a
  hwx0_1 : ∀ i : grid0.Coords, EltTy.bits .bf16 = 32 ∨ (Rect.block (s := S416x1024) S416x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S1024x1.size a
  hwx0_5 : ∀ i : grid0.Coords, EltTy.bits .bf16 = 32 ∨ (Rect.block (s := S1024x1) S1024x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S131072x1.size a
  hwx0_7 : ∀ i : grid0.Coords, EltTy.bits .f32 = 32 ∨ (Rect.block (s := S131072x1) S1024x1.size (cc0_transform_7 i) (hinb0_7 i)).WholeWords (EltTy.packing .f32)

variable [Facts₀]

def gather_S262144x32_S131072x1_S131072x32_1_0_n_n_0_1_132 : GatherDims S262144x32 S131072x1 S131072x32 where
  offsetDims := [1]
  collapsedSliceDims := [0]
  operandBatchingDims := []
  startIndicesBatchingDims := []
  startIndexMap := [0]
  indexVectorDim := 1
  sliceSizes := ![1, 32]
  wf := gather_S262144x32_S131072x1_S131072x32_1_0_n_n_0_1_132_wf
def gather_S262144x128_S131072x1_S131072x128_1_0_n_n_0_1_1128 : GatherDims S262144x128 S131072x1 S131072x128 where
  offsetDims := [1]
  collapsedSliceDims := [0]
  operandBatchingDims := []
  startIndicesBatchingDims := []
  startIndexMap := [0]
  indexVectorDim := 1
  sliceSizes := ![1, 128]
  wf := gather_S262144x128_S131072x1_S131072x128_1_0_n_n_0_1_1128_wf
def gather_S262144_S131072x1_S131072_n_0_n_n_0_1_1 : GatherDims S262144 S131072x1 S131072 where
  offsetDims := []
  collapsedSliceDims := [0]
  operandBatchingDims := []
  startIndicesBatchingDims := []
  startIndexMap := [0]
  indexVectorDim := 1
  sliceSizes := ![1]
  wf := gather_S262144_S131072x1_S131072_n_0_n_n_0_1_1_wf
def gather_S1024x128_S131072x1_S131072x128_1_0_n_n_0_1_1128 : GatherDims S1024x128 S131072x1 S131072x128 where
  offsetDims := [1]
  collapsedSliceDims := [0]
  operandBatchingDims := []
  startIndicesBatchingDims := []
  startIndexMap := [0]
  indexVectorDim := 1
  sliceSizes := ![1, 128]
  wf := gather_S1024x128_S131072x1_S131072x128_1_0_n_n_0_1_1128_wf
def scatter_S1024_S1_S__n_0_0_0 : ScatterDims S1024 S1 S_ where
  updateWindowDims := []
  insertedWindowDims := [0]
  scatterDimsToOperandDims := [0]
  indexVectorDim := 0
  wf := scatter_S1024_S1_S__n_0_0_0_wf
def scatter_S131072_S1024x1_S1024_n_0_0_1 : ScatterDims S131072 S1024x1 S1024 where
  updateWindowDims := []
  insertedWindowDims := [0]
  scatterDimsToOperandDims := [0]
  indexVectorDim := 1
  wf := scatter_S131072_S1024x1_S1024_n_0_0_1_wf
def dot_S1024x416_S416x1024_S1024x1024_1_0_0_1_n_n : DotDims S1024x416 S416x1024 S1024x1024 where
  lhsContracting := [1]
  rhsContracting := [0]
  lhsNonContracting := [0]
  rhsNonContracting := [1]
  lhsBatch := []
  rhsBatch := []
  wf := dot_S1024x416_S416x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf

abbrev win0_0 : Pipeline.Window sig grid0 :=
  Pipeline.Window.ofSpec (Memref.whole main_v45) S1024x416.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S416x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v49) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v50) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v48) S1024x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v51) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v52) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S262144x32 : Shape := ⟨2, ![262144, 32]⟩
abbrev S262144x128 : Shape := ⟨2, ![262144, 128]⟩
abbrev S1024x128 : Shape := ⟨2, ![1024, 128]⟩
abbrev S262144 : Shape := ⟨1, ![262144]⟩
abbrev S131072 : Shape := ⟨1, ![131072]⟩
abbrev S1024 : Shape := ⟨1, ![1024]⟩
abbrev S416x1024 : Shape := ⟨2, ![416, 1024]⟩
abbrev S1024x1024 : Shape := ⟨2, ![1024, 1024]⟩
abbrev S1024x1 : Shape := ⟨2, ![1024, 1]⟩
abbrev S1 : Shape := ⟨1, ![1]⟩
abbrev S_ : Shape := ⟨0, ![]⟩
abbrev S131072x1 : Shape := ⟨2, ![131072, 1]⟩
abbrev S131072x32 : Shape := ⟨2, ![131072, 32]⟩
abbrev S131072x128 : Shape := ⟨2, ![131072, 128]⟩
abbrev S1023 : Shape := ⟨1, ![1023]⟩
abbrev S1x1 : Shape := ⟨2, ![1, 1]⟩
abbrev S131072x416 : Shape := ⟨2, ![131072, 416]⟩
abbrev S131072x1024 : Shape := ⟨2, ![131072, 1024]⟩
abbrev S1x1024 : Shape := ⟨2, ![1, 1024]⟩

abbrev nBuf : Space → Nat
  | .hbm => 121
  | .vmem => 0
  | .smem => 0
  | _ => 0

abbrev bufTy : (tb : Table) → Fin (tcTables nBuf tb) → BufTy
  | .hbm, ⟨0, _⟩ => ⟨S262144x32, .f32⟩
  | .hbm, ⟨1, _⟩ => ⟨S262144x128, .f32⟩
  | .hbm, ⟨2, _⟩ => ⟨S1024x128, .f32⟩
  | .hbm, ⟨3, _⟩ => ⟨S1024x128, .f32⟩
  | .hbm, ⟨4, _⟩ => ⟨S262144, .i32⟩
  | .hbm, ⟨5, _⟩ => ⟨S131072, .i32⟩
  | .hbm, ⟨6, _⟩ => ⟨S1024, .i32⟩
  | .hbm, ⟨7, _⟩ => ⟨S416x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1, .f32⟩
  | .hbm, ⟨12, _⟩ => ⟨S1, .f32⟩
  | .hbm, ⟨13, _⟩ => ⟨S_, .i32⟩
  | .hbm, ⟨14, _⟩ => ⟨S131072, .i32⟩
  | .hbm, ⟨15, _⟩ => ⟨S131072, .i1⟩
  | .hbm, ⟨16, _⟩ => ⟨S_, .i32⟩
  | .hbm, ⟨17, _⟩ => ⟨S131072, .i32⟩
  | .hbm, ⟨18, _⟩ => ⟨S131072, .i32⟩
  | .hbm, ⟨19, _⟩ => ⟨S131072, .i32⟩
  | .hbm, ⟨20, _⟩ => ⟨S131072x1, .i32⟩
  | .hbm, ⟨21, _⟩ => ⟨S131072x32, .f32⟩
  | .hbm, ⟨22, _⟩ => ⟨S_, .i32⟩
  | .hbm, ⟨23, _⟩ => ⟨S131072, .i32⟩
  | .hbm, ⟨24, _⟩ => ⟨S131072, .i1⟩
  | .hbm, ⟨25, _⟩ => ⟨S_, .i32⟩
  | .hbm, ⟨26, _⟩ => ⟨S131072, .i32⟩
  | .hbm, ⟨27, _⟩ => ⟨S131072, .i32⟩
  | .hbm, ⟨28, _⟩ => ⟨S131072, .i32⟩
  | .hbm, ⟨29, _⟩ => ⟨S131072x1, .i32⟩
  | .hbm, ⟨30, _⟩ => ⟨S131072x128, .f32⟩
  | .hbm, ⟨31, _⟩ => ⟨S_, .i32⟩
  | .hbm, ⟨32, _⟩ => ⟨S131072, .i32⟩
  | .hbm, ⟨33, _⟩ => ⟨S131072, .i1⟩
  | .hbm, ⟨34, _⟩ => ⟨S_, .i32⟩
  | .hbm, ⟨35, _⟩ => ⟨S131072, .i32⟩
  | .hbm, ⟨36, _⟩ => ⟨S131072, .i32⟩
  | .hbm, ⟨37, _⟩ => ⟨S131072, .i32⟩
  | .hbm, ⟨38, _⟩ => ⟨S131072x1, .i32⟩
  | .hbm, ⟨39, _⟩ => ⟨S131072, .i32⟩
  | .hbm, ⟨40, _⟩ => ⟨S_, .i32⟩
  | .hbm, ⟨41, _⟩ => ⟨S131072, .i32⟩
  | .hbm, ⟨42, _⟩ => ⟨S131072, .i1⟩
  | .hbm, ⟨43, _⟩ => ⟨S_, .i32⟩
  | .hbm, ⟨44, _⟩ => ⟨S131072, .i32⟩
  | .hbm, ⟨45, _⟩ => ⟨S131072, .i32⟩
  | .hbm, ⟨46, _⟩ => ⟨S131072, .i32⟩
  | .hbm, ⟨47, _⟩ => ⟨S131072x1, .i32⟩
  | .hbm, ⟨48, _⟩ => ⟨S131072x128, .f32⟩
  | .hbm, ⟨49, _⟩ => ⟨S1, .i32⟩
  | .hbm, ⟨50, _⟩ => ⟨S1023, .i32⟩
  | .hbm, ⟨51, _⟩ => ⟨S1024, .i32⟩
  | .hbm, ⟨52, _⟩ => ⟨S_, .i32⟩
  | .hbm, ⟨53, _⟩ => ⟨S1, .i32⟩
  | .hbm, ⟨54, _⟩ => ⟨S_, .i32⟩
  | .hbm, ⟨55, _⟩ => ⟨S1024, .i32⟩
  | .hbm, ⟨56, _⟩ => ⟨S_, .i32⟩
  | .hbm, ⟨57, _⟩ => ⟨S_, .i32⟩
  | .hbm, ⟨58, _⟩ => ⟨S1024, .i32⟩
  | .hbm, ⟨59, _⟩ => ⟨S_, .i32⟩
  | .hbm, ⟨60, _⟩ => ⟨S131072, .i32⟩
  | .hbm, ⟨61, _⟩ => ⟨S_, .i32⟩
  | .hbm, ⟨62, _⟩ => ⟨S1024, .i32⟩
  | .hbm, ⟨63, _⟩ => ⟨S1024, .i1⟩
  | .hbm, ⟨64, _⟩ => ⟨S_, .i32⟩
  | .hbm, ⟨65, _⟩ => ⟨S1024, .i32⟩
  | .hbm, ⟨66, _⟩ => ⟨S1024, .i32⟩
  | .hbm, ⟨67, _⟩ => ⟨S1024, .i32⟩
  | .hbm, ⟨68, _⟩ => ⟨S1024x1, .i32⟩
  | .hbm, ⟨69, _⟩ => ⟨S_, .i32⟩
  | .hbm, ⟨70, _⟩ => ⟨S1024, .i32⟩
  | .hbm, ⟨71, _⟩ => ⟨S131072, .i32⟩
  | .hbm, ⟨72, _⟩ => ⟨S_, .i32⟩
  | .hbm, ⟨73, _⟩ => ⟨S_, .i32⟩
  | .hbm, ⟨74, _⟩ => ⟨S131072, .i32⟩
  | .hbm, ⟨75, _⟩ => ⟨S_, .i32⟩
  | .hbm, ⟨76, _⟩ => ⟨S131072, .i32⟩
  | .hbm, ⟨77, _⟩ => ⟨S131072, .i32⟩
  | .hbm, ⟨78, _⟩ => ⟨S_, .i32⟩
  | .hbm, ⟨79, _⟩ => ⟨S131072, .i32⟩
  | .hbm, ⟨80, _⟩ => ⟨S131072, .i1⟩
  | .hbm, ⟨81, _⟩ => ⟨S_, .i32⟩
  | .hbm, ⟨82, _⟩ => ⟨S131072, .i32⟩
  | .hbm, ⟨83, _⟩ => ⟨S131072, .i32⟩
  | .hbm, ⟨84, _⟩ => ⟨S131072, .i32⟩
  | .hbm, ⟨85, _⟩ => ⟨S131072x1, .i32⟩
  | .hbm, ⟨86, _⟩ => ⟨S1, .i32⟩
  | .hbm, ⟨87, _⟩ => ⟨S_, .i32⟩
  | .hbm, ⟨88, _⟩ => ⟨S131072x1, .i32⟩
  | .hbm, ⟨89, _⟩ => ⟨S131072x1, .i1⟩
  | .hbm, ⟨90, _⟩ => ⟨S1x1, .i32⟩
  | .hbm, ⟨91, _⟩ => ⟨S131072x1, .i32⟩
  | .hbm, ⟨92, _⟩ => ⟨S131072x1, .i1⟩
  | .hbm, ⟨93, _⟩ => ⟨S131072x1, .i1⟩
  | .hbm, ⟨94, _⟩ => ⟨S_, .i1⟩
  | .hbm, ⟨95, _⟩ => ⟨S131072, .i1⟩
  | .hbm, ⟨96, _⟩ => ⟨S131072x128, .f32⟩
  | .hbm, ⟨97, _⟩ => ⟨S131072x128, .i1⟩
  | .hbm, ⟨98, _⟩ => ⟨S_, .f32⟩
  | .hbm, ⟨99, _⟩ => ⟨S131072x128, .f32⟩
  | .hbm, ⟨100, _⟩ => ⟨S131072x128, .f32⟩
  | .hbm, ⟨101, _⟩ => ⟨S131072x416, .f32⟩
  | .hbm, ⟨102, _⟩ => ⟨S131072x1024, .f32⟩
  | .hbm, ⟨103, _⟩ => ⟨S1x1024, .f32⟩
  | .hbm, ⟨104, _⟩ => ⟨S131072x1024, .f32⟩
  | .hbm, ⟨105, _⟩ => ⟨S131072x1024, .f32⟩
  | .hbm, ⟨106, _⟩ => ⟨S_, .f32⟩
  | .hbm, ⟨107, _⟩ => ⟨S131072x1024, .f32⟩
  | .hbm, ⟨108, _⟩ => ⟨S131072x1024, .f32⟩
  | .hbm, ⟨109, _⟩ => ⟨S131072x1024, .f32⟩
  | .hbm, ⟨110, _⟩ => ⟨S1x1024, .f32⟩
  | .hbm, ⟨111, _⟩ => ⟨S131072x1024, .f32⟩
  | .hbm, ⟨112, _⟩ => ⟨S131072x1024, .f32⟩
  | .hbm, ⟨113, _⟩ => ⟨S_, .f32⟩
  | .hbm, ⟨114, _⟩ => ⟨S131072x1024, .f32⟩
  | .hbm, ⟨115, _⟩ => ⟨S131072x1024, .f32⟩
  | .hbm, ⟨116, _⟩ => ⟨S131072x1, .f32⟩
  | .hbm, ⟨117, _⟩ => ⟨S1x1, .f32⟩
  | .hbm, ⟨118, _⟩ => ⟨S131072x1, .f32⟩
  | .hbm, ⟨119, _⟩ => ⟨S131072x1, .f32⟩
  | .hbm, ⟨120, _⟩ => ⟨S131072, .f32⟩
  | _, _ => ⟨S262144x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call0_v0 : Ref sig .tc := ⟨.hbm, 49, rfl⟩
abbrev main_call0_v1 : Ref sig .tc := ⟨.hbm, 50, rfl⟩
abbrev main_v28 : Ref sig .tc := ⟨.hbm, 51, rfl⟩
abbrev main_c_7 : Ref sig .tc := ⟨.hbm, 52, rfl⟩
abbrev main_v29 : Ref sig .tc := ⟨.hbm, 53, rfl⟩
abbrev main_c_8 : Ref sig .tc := ⟨.hbm, 54, rfl⟩
abbrev main_v30 : Ref sig .tc := ⟨.hbm, 55, rfl⟩
abbrev main_call1_call0_c : Ref sig .tc := ⟨.hbm, 56, rfl⟩
abbrev main_call1_call0_v0 : Ref sig .tc := ⟨.hbm, 57, rfl⟩
abbrev main_v31 : Ref sig .tc := ⟨.hbm, 58, rfl⟩
abbrev main_c_9 : Ref sig .tc := ⟨.hbm, 59, rfl⟩
abbrev main_v32 : Ref sig .tc := ⟨.hbm, 60, rfl⟩
abbrev main_c_10 : Ref sig .tc := ⟨.hbm, 61, rfl⟩
abbrev main_v33 : Ref sig .tc := ⟨.hbm, 62, rfl⟩
abbrev main_v34 : Ref sig .tc := ⟨.hbm, 63, rfl⟩
abbrev main_c_11 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_12 : Ref sig .tc := ⟨.hbm, 69, rfl⟩
abbrev main_v39 : Ref sig .tc := ⟨.hbm, 70, rfl⟩
abbrev main_v40 : Ref sig .tc := ⟨.hbm, 71, rfl⟩
abbrev main_call2_call0_c : Ref sig .tc := ⟨.hbm, 72, rfl⟩
abbrev main_call2_call0_v0 : Ref sig .tc := ⟨.hbm, 73, rfl⟩
abbrev main_v41 : Ref sig .tc := ⟨.hbm, 74, rfl⟩
abbrev main_c_13 : Ref sig .tc := ⟨.hbm, 75, rfl⟩
abbrev main_v42 : Ref sig .tc := ⟨.hbm, 76, rfl⟩
abbrev main_v43 : Ref sig .tc := ⟨.hbm, 77, rfl⟩
abbrev main_call3_c : Ref sig .tc := ⟨.hbm, 78, rfl⟩
abbrev main_call3_v0 : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_c_1 : Ref sig .tc := ⟨.hbm, 86, rfl⟩
abbrev main_call3_c_2 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_3 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_call3_cst : Ref sig .tc := ⟨.hbm, 98, rfl⟩
abbrev main_call3_v15 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_call4_cst : Ref sig .tc := ⟨.hbm, 106, rfl⟩
abbrev main_call4_v0 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_call5_cst : Ref sig .tc := ⟨.hbm, 113, rfl⟩
abbrev main_call5_v0 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  slices_S1024_S1_1023 : S1024.Slices ![1023] S1
  slices_S1024_S1023_0 : S1024.Slices ![0] S1023
  concatenates_S1_S1023_S1024_d0 : Shape.Concatenates [S1, S1023] S1024 0
  bcast_S_S1 : S_.BroadcastsInDim S1 (![] : Fin 0 → Fin S1.rank)
  bcast_S_S_ : S_.BroadcastsInDim S_ (![] : Fin 0 → Fin S_.rank)
  reduceWindows_S1024_S1024_w1024s1p1023_0 : S1024.ReduceWindows (![1024] : Fin 1 → Nat) ![1] ![1023] ![0] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  reduceWindows_S131072_S131072_w131072s1p131071_0 : S131072.ReduceWindows (![131072] : Fin 1 → Nat) ![1] ![131071] ![0] S131072
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  reducesTo_S131072x1_S131072_d1 : S131072x1.ReducesTo [1] S131072
  bcast_S131072_S131072x128_0 : S131072.BroadcastsInDim S131072x128 (![0] : Fin 1 → Fin S131072x128.rank)
  bcast_S_S131072x128 : S_.BroadcastsInDim S131072x128 (![] : Fin 0 → Fin S131072x128.rank)
  concatenates_S131072x32_S131072x128_S131072x128_S131072x128_S131072x416_d1 : Shape.Concatenates [S131072x32, S131072x128, S131072x128, S131072x128] S131072x416 1
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  bcast_S_S131072x1024 : S_.BroadcastsInDim S131072x1024 (![] : Fin 0 → Fin S131072x1024.rank)
  shapeCasts_S131072x1_S131072 : S131072x1.ShapeCasts S131072
  gather_S262144x32_S131072x1_S131072x32_1_0_n_n_0_1_132_wf : GatherDims.WF S262144x32 S131072x1 S131072x32 [1] [0] [] [0] [] 1 ![1, 32]
  gather_S262144x128_S131072x1_S131072x128_1_0_n_n_0_1_1128_wf : GatherDims.WF S262144x128 S131072x1 S131072x128 [1] [0] [] [0] [] 1 ![1, 128]
  gather_S262144_S131072x1_S131072_n_0_n_n_0_1_1_wf : GatherDims.WF S262144 S131072x1 S131072 [] [0] [] [0] [] 1 ![1]
  gather_S1024x128_S131072x1_S131072x128_1_0_n_n_0_1_1128_wf : GatherDims.WF S1024x128 S131072x1 S131072x128 [1] [0] [] [0] [] 1 ![1, 128]
  scatter_S1024_S1_S__n_0_0_0_wf : ScatterDims.WF S1024 S1 S_ [] [0] [0] 0
  scatter_S131072_S1024x1_S1024_n_0_0_1_wf : ScatterDims.WF S131072 S1024x1 S1024 [] [0] [0] 1
  dot_S131072x416_S416x1024_S131072x1024_1_0_0_1_n_n_wf : DotDims.WF S131072x416 S416x1024 S131072x1024 [1] [0] [0] [1] [] []
  dot_S131072x1024_S1024x1024_S131072x1024_1_0_0_1_n_n_wf : DotDims.WF S131072x1024 S1024x1024 S131072x1024 [1] [0] [0] [1] [] []
  dot_S131072x1024_S1024x1_S131072x1_1_0_0_1_n_n_wf : DotDims.WF S131072x1024 S1024x1 S131072x1 [1] [0] [0] [1] [] []

variable [Facts₀]

def gather_S262144x32_S131072x1_S131072x32_1_0_n_n_0_1_132 : GatherDims S262144x32 S131072x1 S131072x32 where
  offsetDims := [1]
  collapsedSliceDims := [0]
  operandBatchingDims := []
  startIndicesBatchingDims := []
  startIndexMap := [0]
  indexVectorDim := 1
  sliceSizes := ![1, 32]
  wf := gather_S262144x32_S131072x1_S131072x32_1_0_n_n_0_1_132_wf
def gather_S262144x128_S131072x1_S131072x128_1_0_n_n_0_1_1128 : GatherDims S262144x128 S131072x1 S131072x128 where
  offsetDims := [1]
  collapsedSliceDims := [0]
  operandBatchingDims := []
  startIndicesBatchingDims := []
  startIndexMap := [0]
  indexVectorDim := 1
  sliceSizes := ![1, 128]
  wf := gather_S262144x128_S131072x1_S131072x128_1_0_n_n_0_1_1128_wf
def gather_S262144_S131072x1_S131072_n_0_n_n_0_1_1 : GatherDims S262144 S131072x1 S131072 where
  offsetDims := []
  collapsedSliceDims := [0]
  operandBatchingDims := []
  startIndicesBatchingDims := []
  startIndexMap := [0]
  indexVectorDim := 1
  sliceSizes := ![1]
  wf := gather_S262144_S131072x1_S131072_n_0_n_n_0_1_1_wf
def gather_S1024x128_S131072x1_S131072x128_1_0_n_n_0_1_1128 : GatherDims S1024x128 S131072x1 S131072x128 where
  offsetDims := [1]
  collapsedSliceDims := [0]
  operandBatchingDims := []
  startIndicesBatchingDims := []
  startIndexMap := [0]
  indexVectorDim := 1
  sliceSizes := ![1, 128]
  wf := gather_S1024x128_S131072x1_S131072x128_1_0_n_n_0_1_1128_wf
def scatter_S1024_S1_S__n_0_0_0 : ScatterDims S1024 S1 S_ where
  updateWindowDims := []
  insertedWindowDims := [0]
  scatterDimsToOperandDims := [0]
  indexVectorDim := 0
  wf := scatter_S1024_S1_S__n_0_0_0_wf
def scatter_S131072_S1024x1_S1024_n_0_0_1 : ScatterDims S131072 S1024x1 S1024 where
  updateWindowDims := []
  insertedWindowDims := [0]
  scatterDimsToOperandDims := [0]
  indexVectorDim := 1
  wf := scatter_S131072_S1024x1_S1024_n_0_0_1_wf
def dot_S131072x416_S416x1024_S131072x1024_1_0_0_1_n_n : DotDims S131072x416 S416x1024 S131072x1024 where
  lhsContracting := [1]
  rhsContracting := [0]
  lhsNonContracting := [0]
  rhsNonContracting := [1]
  lhsBatch := []
  rhsBatch := []
  wf := dot_S131072x416_S416x1024_S131072x1024_1_0_0_1_n_n_wf
def dot_S131072x1024_S1024x1024_S131072x1024_1_0_0_1_n_n : DotDims S131072x1024 S1024x1024 S131072x1024 where
  lhsContracting := [1]
  rhsContracting := [0]
  lhsNonContracting := [0]
  rhsNonContracting := [1]
  lhsBatch := []
  rhsBatch := []
  wf := dot_S131072x1024_S1024x1024_S131072x1024_1_0_0_1_n_n_wf
def dot_S131072x1024_S1024x1_S131072x1_1_0_0_1_n_n : DotDims S131072x1024 S1024x1 S131072x1 where
  lhsContracting := [1]
  rhsContracting := [0]
  lhsNonContracting := [0]
  rhsNonContracting := [1]
  lhsBatch := []
  rhsBatch := []
  wf := dot_S131072x1024_S1024x1_S131072x1_1_0_0_1_n_n_wf

class Facts : Prop extends Facts₀ where

variable [Facts]
-- ==== Proof.BEntry.lean ====
/- The program around its one kernel call.

   Before the call the host computes, in nine stretches, the input matrix (four gathered pieces side by side), the three
   weight matrices narrowed to bf16 and the three biases as one-row matrices; after it one line reads the result's one
   column as a vector. Here: the contents every buffer has when the call is reached, as the fold of those stretches over
   the launch memory; that the program reduces to the call followed by the closing line; and that the closing line
   touches only buffers that outlive the call, allocates nothing and writes none of the call's arrays. -/
import proofs.«102230_j12979391169442_1_alg».proof.Proof.Gen.Kernel.Launch
import Idealize.ShloMosaic.Lib.Pipeline.FrameSuffix

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

variable (m : (ℓ : Loc nD τ sig) → Buf (Elt F) ℓ)

/-- The host lines before the call, stretch by stretch. -/
abbrev pre : List (List (HloOp τ sig (Elt F))) :=
  [hostOps0, hostOps0_1, hostOps0_2, hostOps0_3, hostOps0_4, hostOps0_5, hostOps0_6, hostOps0_7, hostOps0_8]

/-- Core `c`'s buffer contents when the call is reached: the launch contents after every line before it. -/
abbrev V0 (c : Dev nD) : Valuation τ sig (Elt F) := StableHlo.after (List.flatten pre) (fun b => m (c, b))
/-- The same read at a reference. -/
abbrev V (c : Dev nD) (b : Ref sig .tc) : Buf (Elt F) ((c : Thread nD τ).loc b) := V0 m c (Proc.devRef .tc b)

/-! Every host line determines its result: none allocates a buffer of unknown contents. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the lines before the call, the call, and the closing line: it reduces to the call continued by the
    closing line, at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1]
    ⟨hostOps0_sub, hostOps0_1_sub, hostOps0_2_sub, hostOps0_3_sub, hostOps0_4_sub, hostOps0_5_sub, hostOps0_6_sub, hostOps0_7_sub, hostOps0_8_sub⟩
    ⟨hostOps0_fresh, hostOps0_1_fresh, hostOps0_2_fresh, hostOps0_3_fresh, hostOps0_4_fresh, hostOps0_5_fresh, hostOps0_6_fresh, hostOps0_7_fresh, hostOps0_8_fresh⟩ main_chain

/-- The closing line touches the call's arrays and the buffers that bypass the call only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes its own result buffer, which is none of the call's eight arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

end Cert.Kernel.Fr

end
-- ==== Proof.BBody.lean ====
/- The kernel call's proof data and its body.

   At grid point t the body is handed the seven input windows' blocks — rows 1024·t … 1024·t+1023 of the input matrix and
   the six parameter arrays whole — and an output buffer; it loads the seven, computes one 1024×1 column from them and
   stores it over the whole output buffer. So after the body each input buffer still holds its block and the output
   buffer holds that column, a function of the seven blocks alone; nothing is carried from one point to the next. -/
import proofs.«102230_j12979391169442_1_alg».proof.Proof.BEntry
import proofs.«102230_j12979391169442_1_alg».proof.Proof.Gen.Kernel.Skeleton
import proofs.«102230_j12979391169442_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds its block at every point, whether the block was fetched there or kept from the point
    before (the six parameter windows are fetched once): for any proof data over the arrays `V` whose body leaves the
    block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output buffer -/

/-- The whole of a 1024x416 buffer as one rectangle. -/
abbrev whole_S1024x416 : Rect S1024x416 := Rect.unit (s := S1024x416) ![0, 0] S1024x416.size inb_S1024x416_S1024x416_0_0
/-- The whole of a 416x1024 buffer as one rectangle. -/
abbrev whole_S416x1024 : Rect S416x1024 := Rect.unit (s := S416x1024) ![0, 0] S416x1024.size inb_S416x1024_S416x1024_0_0
/-- The whole of a 1x1024 buffer as one rectangle. -/
abbrev whole_S1x1024 : Rect S1x1024 := Rect.unit (s := S1x1024) ![0, 0] S1x1024.size inb_S1x1024_S1x1024_0_0
/-- The whole of a 1024x1024 buffer as one rectangle. -/
abbrev whole_S1024x1024 : Rect S1024x1024 := Rect.unit (s := S1024x1024) ![0, 0] S1024x1024.size inb_S1024x1024_S1024x1024_0_0
/-- The whole of a 1024x1 buffer as one rectangle. -/
abbrev whole_S1024x1 : Rect S1024x1 := Rect.unit (s := S1024x1) ![0, 0] S1024x1.size inb_S1024x1_S1024x1_0_0
/-- The whole of a 1x1 buffer as one rectangle. -/
abbrev whole_S1x1 : Rect S1x1 := Rect.unit (s := S1x1) ![0, 0] S1x1.size inb_S1x1_S1x1_0_0

/-- The output buffer after the body, from the seven input blocks: its one store, over the whole buffer, of the
    column the body computes from the loaded blocks. -/
def out7 (x0 : Vec F S1024x416 .f32) (x1 : Vec F S416x1024 .bf16) (x2 : Vec F S1x1024 .f32) (x3 : Vec F S1024x1024 .bf16) (x4 : Vec F S1x1024 .f32) (x5 : Vec F S1024x1 .bf16) (x6 : Vec F S1x1 .f32) : Vec F S1024x1 .f32 :=
  View.canon [⟨whole_S1024x1, k0_pay1 (View.ld x0 whole_S1024x416) (View.ld x1 whole_S416x1024) (View.ld x2 whole_S1x1024) (View.ld x3 whole_S1024x1024) (View.ld x4 whole_S1x1024) (View.ld x5 whole_S1024x1) (View.ld x6 whole_S1x1)⟩]

/-- That one store covers the buffer. -/
theorem cover7 (p0 : Vec F S1024x1 .f32) (y : S1024x1.Idx) :
    ∃ pc ∈ ([⟨whole_S1024x1, p0⟩] : List (View.Piece (Elt F) S1024x1 .f32)), y ∈ pc.1.set :=
  View.cover_of_tiled [⟨whole_S1024x1, p0⟩] S1024x1.size (by rfl) y

/-! ## The body's triple -/

set_option maxHeartbeats 4000000 in
/-- The body on whole buffers, the inputs' at contents `xW` and the output's at anything, runs to a continuation that
    holds the inputs' as they were and the output's at `out7` of the inputs'. -/
theorem sound_kernel (c : Dev nD) (E : Set ℕ) (i : grid0.Coords)
    (arg1 : Memref sig .tc .vmem S1024x416 .f32) (harg1 : arg1.IsWhole) (arg2 : Memref sig .tc .vmem S416x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1 .bf16) (harg6 : arg6.IsWhole) (arg7 : Memref sig .tc .vmem S1x1 .f32) (harg7 : arg7.IsWhole)
    (arg8 : Memref sig .tc .vmem S1024x1 .f32) (harg8 : arg8.IsWhole)
    (x0 : Vec F S1024x416 .f32) (x1 : Vec F S416x1024 .bf16) (x2 : Vec F S1x1024 .f32) (x3 : Vec F S1024x1024 .bf16) (x4 : Vec F S1x1024 .f32) (x5 : Vec F S1024x1 .bf16) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7 _)

/-! ## The proof data -/

/-- The call's proof data on core `c`: the arrays as the call finds them; after the body at point `t` each input's
    buffer at its block and the output's at `out7` of the seven blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the contents at the call. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 4000000 in
/-- The body at any point: the inputs' buffers hold their blocks, so the triple applies; what else is held passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.BRun.lean ====
/- The kernel's program runs: from any launch memory every weakly fair execution ends, nothing faulting, with each of
   the call's eight arrays at what the write-backs of the 128 points leave in it — an input array as the call found
   it, the output array overwritten block by block with the columns the body stored — and every other buffer that
   outlives the call as the closing line leaves it. -/
import proofs.«102230_j12979391169442_1_alg».proof.Proof.BBody

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- From any launch memory with zero counters every weakly fair execution of the program terminates; at the end each of
    the call's arrays holds what the proof data's write-backs compute, and every other buffer that outlives the call
    holds what the closing line makes of the contents at the call's exit. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.Kernel.Fr

end
-- ==== Proof.BArgs.lean ====
/- The arguments reach the call untouched.

   Each of the ninety-five host lines before the call writes exactly one buffer, and that buffer is always an intermediate
   value of the program, never one of its thirteen arguments. So when the call is reached every argument still holds what it
   held at launch. -/
import proofs.«102230_j12979391169442_1_alg».proof.Proof.BEntry

noncomputable section

namespace Cert.Kernel.Fr

open Cert.Kernel Cert.Kernel.Gen
open Idealize.ShloMosaic Idealize.ShloMosaic.TcCoe
open Idealize.SL.Sem

variable {F : FTy → Type} [FloatOps F]

/-- The buffer each line before the call writes, line by line. -/
def written : List (Ref sig .tc) :=
  [ main_c, main_v0, main_v1, main_c_0, main_v2, main_v3, main_v4, main_v5, main_v6,
    main_c_1, main_v7, main_v8, main_c_2, main_v9, main_v10, main_v11, main_v12, main_v13,
    main_c_3, main_v14, main_v15, main_c_4, main_v16, main_v17, main_v18, main_v19, main_v20,
    main_c_5, main_v21, main_v22, main_c_6, main_v23, main_v24, main_v25, main_v26, main_v27,
    main_call0_v0, main_call0_v1, main_v28,
    main_c_7, main_v29, main_c_8, main_v30,
    main_call1_call0_c, main_call1_call0_v0, main_v31,
    main_c_9, main_v32, main_c_10, main_v33, main_v34, main_c_11, main_v35, main_v36, main_v37, main_v38, main_c_12,
    main_v39, main_v40,
    main_call2_call0_c, main_call2_call0_v0, main_v41,
    main_c_13, main_v42, main_v43,
    main_call3_c, main_call3_v0, main_call3_v1, main_call3_c_0, main_call3_v2, main_call3_v3, main_call3_v4,
    main_call3_v5, main_call3_c_1, main_call3_c_2, main_call3_v6, main_call3_v7, main_call3_v8, main_call3_v9,
    main_call3_v10, main_call3_v11, main_call3_c_3, main_call3_v12, main_call3_v13, main_call3_v14, main_call3_cst,
    main_call3_v15, main_v44,
    main_v45, main_v46, main_v47, main_v48, main_v49, main_v50, main_v51 ]

/-- A buffer of the list, seen as a device buffer, is among the device buffers of the list. -/
theorem single_sub_written {y : Ref sig .tc} (h : y ∈ written) :
    ({Proc.devRef (τ := τ) .tc y} : Finset (DevRef τ sig)) ⊆ (written.map (Proc.devRef (τ := τ) .tc)).toFinset :=
  Finset.singleton_subset_iff.mpr (List.mem_toFinset.mpr (List.mem_map_of_mem h))

set_option maxHeartbeats 1000000 in
/-- Every line before the call writes a buffer of the list and nothing else. -/
theorem pre_writes : (List.flatten (pre (F := F))).Forall fun op =>
    op.writes ⊆ (written.map (Proc.devRef (τ := τ) .tc)).toFinset := by
  simp only [pre, hostOps0, hostOps0_1, hostOps0_2, hostOps0_3, hostOps0_4, hostOps0_5, hostOps0_6, hostOps0_7, hostOps0_8,
    List.flatten_cons, List.flatten_nil, List.append_nil, List.cons_append, List.nil_append, List.Forall,
    StableHlo.nullary_writes, StableHlo.unary_writes, StableHlo.binary_writes, StableHlo.ternary_writes,
    StableHlo.reshape_writes, StableHlo.nary_writes]
  repeat' apply And.intro
  all_goals exact single_sub_written (by decide)

variable (m : (ℓ : Loc nD τ sig) → Buf (Elt F) ℓ)

/-- No line before the call writes the first argument: the call finds it as launched. The same for the other twelve. -/
theorem V_main_arg0 (c : Dev nD) : V m c main_arg0 = m ((c : Thread nD τ).loc main_arg0) :=
  StableHlo.after_of_writes_sub (List.flatten pre) (fun b => m (c, b)) pre_writes (by decide)
theorem V_main_arg1 (c : Dev nD) : V m c main_arg1 = m ((c : Thread nD τ).loc main_arg1) :=
  StableHlo.after_of_writes_sub (List.flatten pre) (fun b => m (c, b)) pre_writes (by decide)
theorem V_main_arg2 (c : Dev nD) : V m c main_arg2 = m ((c : Thread nD τ).loc main_arg2) :=
  StableHlo.after_of_writes_sub (List.flatten pre) (fun b => m (c, b)) pre_writes (by decide)
theorem V_main_arg3 (c : Dev nD) : V m c main_arg3 = m ((c : Thread nD τ).loc main_arg3) :=
  StableHlo.after_of_writes_sub (List.flatten pre) (fun b => m (c, b)) pre_writes (by decide)
theorem V_main_arg4 (c : Dev nD) : V m c main_arg4 = m ((c : Thread nD τ).loc main_arg4) :=
  StableHlo.after_of_writes_sub (List.flatten pre) (fun b => m (c, b)) pre_writes (by decide)
theorem V_main_arg5 (c : Dev nD) : V m c main_arg5 = m ((c : Thread nD τ).loc main_arg5) :=
  StableHlo.after_of_writes_sub (List.flatten pre) (fun b => m (c, b)) pre_writes (by decide)
theorem V_main_arg6 (c : Dev nD) : V m c main_arg6 = m ((c : Thread nD τ).loc main_arg6) :=
  StableHlo.after_of_writes_sub (List.flatten pre) (fun b => m (c, b)) pre_writes (by decide)
theorem V_main_arg7 (c : Dev nD) : V m c main_arg7 = m ((c : Thread nD τ).loc main_arg7) :=
  StableHlo.after_of_writes_sub (List.flatten pre) (fun b => m (c, b)) pre_writes (by decide)
theorem V_main_arg8 (c : Dev nD) : V m c main_arg8 = m ((c : Thread nD τ).loc main_arg8) :=
  StableHlo.after_of_writes_sub (List.flatten pre) (fun b => m (c, b)) pre_writes (by decide)
theorem V_main_arg9 (c : Dev nD) : V m c main_arg9 = m ((c : Thread nD τ).loc main_arg9) :=
  StableHlo.after_of_writes_sub (List.flatten pre) (fun b => m (c, b)) pre_writes (by decide)
theorem V_main_arg10 (c : Dev nD) : V m c main_arg10 = m ((c : Thread nD τ).loc main_arg10) :=
  StableHlo.after_of_writes_sub (List.flatten pre) (fun b => m (c, b)) pre_writes (by decide)
theorem V_main_arg11 (c : Dev nD) : V m c main_arg11 = m ((c : Thread nD τ).loc main_arg11) :=
  StableHlo.after_of_writes_sub (List.flatten pre) (fun b => m (c, b)) pre_writes (by decide)
theorem V_main_arg12 (c : Dev nD) : V m c main_arg12 = m ((c : Thread nD τ).loc main_arg12) :=
  StableHlo.after_of_writes_sub (List.flatten pre) (fun b => m (c, b)) pre_writes (by decide)

end Cert.Kernel.Fr

end
-- ==== Proof.BFrame.lean ====
/- The arguments end as launched.

   No host line before the call writes an argument array; none is one of the call's eight arrays; and the closing
   line writes its own result only. So whatever the call's arrays end holding, each of the thirteen argument arrays
   holds at the end what it held at launch: the frame claim of the kernel's program. -/
import proofs.«102230_j12979391169442_1_alg».proof.Proof.BRun
import proofs.«102230_j12979391169442_1_alg».proof.Proof.BArgs

noncomputable section

namespace Cert.Kernel.Fr

open Cert.Kernel Cert.Kernel.Gen
open Idealize.ShloMosaic Idealize.ShloMosaic.TcCoe
open Idealize.SL Idealize.SL.Sem
open Idealize.ShloMosaic.Rounds
open Idealize.ShloMosaic.Pipeline (Dat)

variable {F : FTy → Type} [FloatOps F]

variable (m : (ℓ : Loc nD τ sig) → Buf (Elt F) ℓ) (ρ : Dev nD → PrngReg)

/-- A buffer that is neither the closing line's result nor one of the call's arrays holds after the closing line what
    it held when the call was reached, whatever the proof data. -/
theorem tail_keeps (dats' : (p : Fin 1) → (c : Dev nD) → Dat τ (Elt F) Unit ℕ (UR sig nD τ) ℕ (cfgs p) c) (c : Dev nD)
    (b : Ref sig .tc) (hb : b ≠ main_v53) (ha : ∀ w, Pipeline.arrRef spec0 w ≠ b) :
    Pipeline.afterTail₀ cfgs dats' 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes,
        Finset.mem_singleton]
      exact StableHlo.devRef_ne_of_ne hb)),
    Pipeline.withArrays_of_ne _ c (V0 m c) _ b ha]

theorem W_main_arg0 (dats' : (p : Fin 1) → (c : Dev nD) → Dat τ (Elt F) Unit ℕ (UR sig nD τ) ℕ (cfgs p) c) (c : Dev nD) :
    Pipeline.afterTail₀ cfgs dats' 0 (V0 m) [hostOps1] c main_arg0 = m ((c : Thread nD τ).loc main_arg0) :=
  (tail_keeps m dats' c main_arg0 (by decide) (by decide)).trans (V_main_arg0 m c)
theorem W_main_arg1 (dats' : (p : Fin 1) → (c : Dev nD) → Dat τ (Elt F) Unit ℕ (UR sig nD τ) ℕ (cfgs p) c) (c : Dev nD) :
    Pipeline.afterTail₀ cfgs dats' 0 (V0 m) [hostOps1] c main_arg1 = m ((c : Thread nD τ).loc main_arg1) :=
  (tail_keeps m dats' c main_arg1 (by decide) (by decide)).trans (V_main_arg1 m c)
theorem W_main_arg2 (dats' : (p : Fin 1) → (c : Dev nD) → Dat τ (Elt F) Unit ℕ (UR sig nD τ) ℕ (cfgs p) c) (c : Dev nD) :
    Pipeline.afterTail₀ cfgs dats' 0 (V0 m) [hostOps1] c main_arg2 = m ((c : Thread nD τ).loc main_arg2) :=
  (tail_keeps m dats' c main_arg2 (by decide) (by decide)).trans (V_main_arg2 m c)
theorem W_main_arg3 (dats' : (p : Fin 1) → (c : Dev nD) → Dat τ (Elt F) Unit ℕ (UR sig nD τ) ℕ (cfgs p) c) (c : Dev nD) :
    Pipeline.afterTail₀ cfgs dats' 0 (V0 m) [hostOps1] c main_arg3 = m ((c : Thread nD τ).loc main_arg3) :=
  (tail_keeps m dats' c main_arg3 (by decide) (by decide)).trans (V_main_arg3 m c)
theorem W_main_arg4 (dats' : (p : Fin 1) → (c : Dev nD) → Dat τ (Elt F) Unit ℕ (UR sig nD τ) ℕ (cfgs p) c) (c : Dev nD) :
    Pipeline.afterTail₀ cfgs dats' 0 (V0 m) [hostOps1] c main_arg4 = m ((c : Thread nD τ).loc main_arg4) :=
  (tail_keeps m dats' c main_arg4 (by decide) (by decide)).trans (V_main_arg4 m c)
theorem W_main_arg5 (dats' : (p : Fin 1) → (c : Dev nD) → Dat τ (Elt F) Unit ℕ (UR sig nD τ) ℕ (cfgs p) c) (c : Dev nD) :
    Pipeline.afterTail₀ cfgs dats' 0 (V0 m) [hostOps1] c main_arg5 = m ((c : Thread nD τ).loc main_arg5) :=
  (tail_keeps m dats' c main_arg5 (by decide) (by decide)).trans (V_main_arg5 m c)
theorem W_main_arg6 (dats' : (p : Fin 1) → (c : Dev nD) → Dat τ (Elt F) Unit ℕ (UR sig nD τ) ℕ (cfgs p) c) (c : Dev nD) :
    Pipeline.afterTail₀ cfgs dats' 0 (V0 m) [hostOps1] c main_arg6 = m ((c : Thread nD τ).loc main_arg6) :=
  (tail_keeps m dats' c main_arg6 (by decide) (by decide)).trans (V_main_arg6 m c)
theorem W_main_arg7 (dats' : (p : Fin 1) → (c : Dev nD) → Dat τ (Elt F) Unit ℕ (UR sig nD τ) ℕ (cfgs p) c) (c : Dev nD) :
    Pipeline.afterTail₀ cfgs dats' 0 (V0 m) [hostOps1] c main_arg7 = m ((c : Thread nD τ).loc main_arg7) :=
  (tail_keeps m dats' c main_arg7 (by decide) (by decide)).trans (V_main_arg7 m c)
theorem W_main_arg8 (dats' : (p : Fin 1) → (c : Dev nD) → Dat τ (Elt F) Unit ℕ (UR sig nD τ) ℕ (cfgs p) c) (c : Dev nD) :
    Pipeline.afterTail₀ cfgs dats' 0 (V0 m) [hostOps1] c main_arg8 = m ((c : Thread nD τ).loc main_arg8) :=
  (tail_keeps m dats' c main_arg8 (by decide) (by decide)).trans (V_main_arg8 m c)
theorem W_main_arg9 (dats' : (p : Fin 1) → (c : Dev nD) → Dat τ (Elt F) Unit ℕ (UR sig nD τ) ℕ (cfgs p) c) (c : Dev nD) :
    Pipeline.afterTail₀ cfgs dats' 0 (V0 m) [hostOps1] c main_arg9 = m ((c : Thread nD τ).loc main_arg9) :=
  (tail_keeps m dats' c main_arg9 (by decide) (by decide)).trans (V_main_arg9 m c)
theorem W_main_arg10 (dats' : (p : Fin 1) → (c : Dev nD) → Dat τ (Elt F) Unit ℕ (UR sig nD τ) ℕ (cfgs p) c) (c : Dev nD) :
    Pipeline.afterTail₀ cfgs dats' 0 (V0 m) [hostOps1] c main_arg10 = m ((c : Thread nD τ).loc main_arg10) :=
  (tail_keeps m dats' c main_arg10 (by decide) (by decide)).trans (V_main_arg10 m c)
theorem W_main_arg11 (dats' : (p : Fin 1) → (c : Dev nD) → Dat τ (Elt F) Unit ℕ (UR sig nD τ) ℕ (cfgs p) c) (c : Dev nD) :
    Pipeline.afterTail₀ cfgs dats' 0 (V0 m) [hostOps1] c main_arg11 = m ((c : Thread nD τ).loc main_arg11) :=
  (tail_keeps m dats' c main_arg11 (by decide) (by decide)).trans (V_main_arg11 m c)
theorem W_main_arg12 (dats' : (p : Fin 1) → (c : Dev nD) → Dat τ (Elt F) Unit ℕ (UR sig nD τ) ℕ (cfgs p) c) (c : Dev nD) :
    Pipeline.afterTail₀ cfgs dats' 0 (V0 m) [hostOps1] c main_arg12 = m ((c : Thread nD τ).loc main_arg12) :=
  (tail_keeps m dats' c main_arg12 (by decide) (by decide)).trans (V_main_arg12 m c)

/-- The frame claim's post from the run's: each argument array is no array of the call, so the run's post gives it at
    the closing line's reading of the contents at the call's exit, which is its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩)
    (run_main m ρ)

end Cert.Kernel.Fr

end
-- ==== Proof.KEntry.lean ====
/- The program around its one kernel call.

   Before the call the host computes, in nine stretches, the input matrix (four gathered pieces side by side), the three
   weight matrices narrowed to bf16 and the three biases as one-row matrices; after it one line reads the result's one
   column as a vector. Here: the contents every buffer has when the call is reached, as the fold of those stretches over
   the launch memory; that the program reduces to the call followed by the closing line; and that the closing line
   touches only buffers that outlive the call, allocates nothing and writes none of the call's arrays. -/
import proofs.«102230_j12979391169442_1_alg».proof.Proof.Gen.KernelIdeal.Launch
import Idealize.ShloMosaic.Lib.Pipeline.FrameSuffix

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

variable (m : (ℓ : Loc nD τ sig) → Buf (Elt F) ℓ)

/-- The host lines before the call, stretch by stretch. -/
abbrev pre : List (List (HloOp τ sig (Elt F))) :=
  [hostOps0, hostOps0_1, hostOps0_2, hostOps0_3, hostOps0_4, hostOps0_5, hostOps0_6, hostOps0_7, hostOps0_8]

/-- Core `c`'s buffer contents when the call is reached: the launch contents after every line before it. -/
abbrev V0 (c : Dev nD) : Valuation τ sig (Elt F) := StableHlo.after (List.flatten pre) (fun b => m (c, b))
/-- The same read at a reference. -/
abbrev V (c : Dev nD) (b : Ref sig .tc) : Buf (Elt F) ((c : Thread nD τ).loc b) := V0 m c (Proc.devRef .tc b)

/-! Every host line determines its result: none allocates a buffer of unknown contents. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the lines before the call, the call, and the closing line: it reduces to the call continued by the
    closing line, at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1]
    ⟨hostOps0_sub, hostOps0_1_sub, hostOps0_2_sub, hostOps0_3_sub, hostOps0_4_sub, hostOps0_5_sub, hostOps0_6_sub, hostOps0_7_sub, hostOps0_8_sub⟩
    ⟨hostOps0_fresh, hostOps0_1_fresh, hostOps0_2_fresh, hostOps0_3_fresh, hostOps0_4_fresh, hostOps0_5_fresh, hostOps0_6_fresh, hostOps0_7_fresh, hostOps0_8_fresh⟩ main_chain

/-- The closing line touches the call's arrays and the buffers that bypass the call only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes its own result buffer, which is none of the call's eight arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

end Cert.KernelIdeal.Fr

end
-- ==== Proof.KBody.lean ====
/- The kernel call's proof data and its body.

   At grid point t the body is handed the seven input windows' blocks — rows 1024·t … 1024·t+1023 of the input matrix and
   the six parameter arrays whole — and an output buffer; it loads the seven, computes one 1024×1 column from them and
   stores it over the whole output buffer. So after the body each input buffer still holds its block and the output
   buffer holds that column, a function of the seven blocks alone; nothing is carried from one point to the next. -/
import proofs.«102230_j12979391169442_1_alg».proof.Proof.KEntry
import proofs.«102230_j12979391169442_1_alg».proof.Proof.Gen.KernelIdeal.Skeleton
import proofs.«102230_j12979391169442_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds its block at every point, whether the block was fetched there or kept from the point
    before (the six parameter windows are fetched once): for any proof data over the arrays `V` whose body leaves the
    block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output buffer -/

/-- The whole of a 1024x416 buffer as one rectangle. -/
abbrev whole_S1024x416 : Rect S1024x416 := Rect.unit (s := S1024x416) ![0, 0] S1024x416.size inb_S1024x416_S1024x416_0_0
/-- The whole of a 416x1024 buffer as one rectangle. -/
abbrev whole_S416x1024 : Rect S416x1024 := Rect.unit (s := S416x1024) ![0, 0] S416x1024.size inb_S416x1024_S416x1024_0_0
/-- The whole of a 1x1024 buffer as one rectangle. -/
abbrev whole_S1x1024 : Rect S1x1024 := Rect.unit (s := S1x1024) ![0, 0] S1x1024.size inb_S1x1024_S1x1024_0_0
/-- The whole of a 1024x1024 buffer as one rectangle. -/
abbrev whole_S1024x1024 : Rect S1024x1024 := Rect.unit (s := S1024x1024) ![0, 0] S1024x1024.size inb_S1024x1024_S1024x1024_0_0
/-- The whole of a 1024x1 buffer as one rectangle. -/
abbrev whole_S1024x1 : Rect S1024x1 := Rect.unit (s := S1024x1) ![0, 0] S1024x1.size inb_S1024x1_S1024x1_0_0
/-- The whole of a 1x1 buffer as one rectangle. -/
abbrev whole_S1x1 : Rect S1x1 := Rect.unit (s := S1x1) ![0, 0] S1x1.size inb_S1x1_S1x1_0_0

/-- The output buffer after the body, from the seven input blocks: its one store, over the whole buffer, of the
    column the body computes from the loaded blocks. -/
def out7 (x0 : Vec F S1024x416 .f32) (x1 : Vec F S416x1024 .bf16) (x2 : Vec F S1x1024 .f32) (x3 : Vec F S1024x1024 .bf16) (x4 : Vec F S1x1024 .f32) (x5 : Vec F S1024x1 .bf16) (x6 : Vec F S1x1 .f32) : Vec F S1024x1 .f32 :=
  View.canon [⟨whole_S1024x1, k0_pay1 (View.ld x0 whole_S1024x416) (View.ld x1 whole_S416x1024) (View.ld x2 whole_S1x1024) (View.ld x3 whole_S1024x1024) (View.ld x4 whole_S1x1024) (View.ld x5 whole_S1024x1) (View.ld x6 whole_S1x1)⟩]

/-- That one store covers the buffer. -/
theorem cover7 (p0 : Vec F S1024x1 .f32) (y : S1024x1.Idx) :
    ∃ pc ∈ ([⟨whole_S1024x1, p0⟩] : List (View.Piece (Elt F) S1024x1 .f32)), y ∈ pc.1.set :=
  View.cover_of_tiled [⟨whole_S1024x1, p0⟩] S1024x1.size (by rfl) y

/-! ## The body's triple -/

set_option maxHeartbeats 4000000 in
/-- The body on whole buffers, the inputs' at contents `xW` and the output's at anything, runs to a continuation that
    holds the inputs' as they were and the output's at `out7` of the inputs'. -/
theorem sound_kernel (c : Dev nD) (E : Set ℕ) (i : grid0.Coords)
    (arg1 : Memref sig .tc .vmem S1024x416 .f32) (harg1 : arg1.IsWhole) (arg2 : Memref sig .tc .vmem S416x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1 .bf16) (harg6 : arg6.IsWhole) (arg7 : Memref sig .tc .vmem S1x1 .f32) (harg7 : arg7.IsWhole)
    (arg8 : Memref sig .tc .vmem S1024x1 .f32) (harg8 : arg8.IsWhole)
    (x0 : Vec F S1024x416 .f32) (x1 : Vec F S416x1024 .bf16) (x2 : Vec F S1x1024 .f32) (x3 : Vec F S1024x1024 .bf16) (x4 : Vec F S1x1024 .f32) (x5 : Vec F S1024x1 .bf16) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7 _)

/-! ## The proof data -/

/-- The call's proof data on core `c`: the arrays as the call finds them; after the body at point `t` each input's
    buffer at its block and the output's at `out7` of the seven blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the contents at the call. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 4000000 in
/-- The body at any point: the inputs' buffers hold their blocks, so the triple applies; what else is held passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.KRun.lean ====
/- The kernel's program runs: from any launch memory every weakly fair execution ends, nothing faulting, with each of
   the call's eight arrays at what the write-backs of the 128 points leave in it — an input array as the call found
   it, the output array overwritten block by block with the columns the body stored — and every other buffer that
   outlives the call as the closing line leaves it. -/
import proofs.«102230_j12979391169442_1_alg».proof.Proof.KBody

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- From any launch memory with zero counters every weakly fair execution of the program terminates; at the end each of
    the call's arrays holds what the proof data's write-backs compute, and every other buffer that outlives the call
    holds what the closing line makes of the contents at the call's exit. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Fr

end
-- ==== Proof.KArgs.lean ====
/- The arguments reach the call untouched.

   Each of the ninety-five host lines before the call writes exactly one buffer, and that buffer is always an intermediate
   value of the program, never one of its thirteen arguments. So when the call is reached every argument still holds what it
   held at launch. -/
import proofs.«102230_j12979391169442_1_alg».proof.Proof.KEntry

noncomputable section

namespace Cert.KernelIdeal.Fr

open Cert.KernelIdeal Cert.KernelIdeal.Gen
open Idealize.ShloMosaic Idealize.ShloMosaic.TcCoe
open Idealize.SL.Sem

variable {F : FTy → Type} [FloatOps F]

/-- The buffer each line before the call writes, line by line. -/
def written : List (Ref sig .tc) :=
  [ main_c, main_v0, main_v1, main_c_0, main_v2, main_v3, main_v4, main_v5, main_v6,
    main_c_1, main_v7, main_v8, main_c_2, main_v9, main_v10, main_v11, main_v12, main_v13,
    main_c_3, main_v14, main_v15, main_c_4, main_v16, main_v17, main_v18, main_v19, main_v20,
    main_c_5, main_v21, main_v22, main_c_6, main_v23, main_v24, main_v25, main_v26, main_v27,
    main_call0_v0, main_call0_v1, main_v28,
    main_c_7, main_v29, main_c_8, main_v30,
    main_call1_call0_c, main_call1_call0_v0, main_v31,
    main_c_9, main_v32, main_c_10, main_v33, main_v34, main_c_11, main_v35, main_v36, main_v37, main_v38, main_c_12,
    main_v39, main_v40,
    main_call2_call0_c, main_call2_call0_v0, main_v41,
    main_c_13, main_v42, main_v43,
    main_call3_c, main_call3_v0, main_call3_v1, main_call3_c_0, main_call3_v2, main_call3_v3, main_call3_v4,
    main_call3_v5, main_call3_c_1, main_call3_c_2, main_call3_v6, main_call3_v7, main_call3_v8, main_call3_v9,
    main_call3_v10, main_call3_v11, main_call3_c_3, main_call3_v12, main_call3_v13, main_call3_v14, main_call3_cst,
    main_call3_v15, main_v44,
    main_v45, main_v46, main_v47, main_v48, main_v49, main_v50, main_v51 ]

/-- A buffer of the list, seen as a device buffer, is among the device buffers of the list. -/
theorem single_sub_written {y : Ref sig .tc} (h : y ∈ written) :
    ({Proc.devRef (τ := τ) .tc y} : Finset (DevRef τ sig)) ⊆ (written.map (Proc.devRef (τ := τ) .tc)).toFinset :=
  Finset.singleton_subset_iff.mpr (List.mem_toFinset.mpr (List.mem_map_of_mem h))

set_option maxHeartbeats 1000000 in
/-- Every line before the call writes a buffer of the list and nothing else. -/
theorem pre_writes : (List.flatten (pre (F := F))).Forall fun op =>
    op.writes ⊆ (written.map (Proc.devRef (τ := τ) .tc)).toFinset := by
  simp only [pre, hostOps0, hostOps0_1, hostOps0_2, hostOps0_3, hostOps0_4, hostOps0_5, hostOps0_6, hostOps0_7, hostOps0_8,
    List.flatten_cons, List.flatten_nil, List.append_nil, List.cons_append, List.nil_append, List.Forall,
    StableHlo.nullary_writes, StableHlo.unary_writes, StableHlo.binary_writes, StableHlo.ternary_writes,
    StableHlo.reshape_writes, StableHlo.nary_writes]
  repeat' apply And.intro
  all_goals exact single_sub_written (by decide)

variable (m : (ℓ : Loc nD τ sig) → Buf (Elt F) ℓ)

/-- No line before the call writes the first argument: the call finds it as launched. The same for the other twelve. -/
theorem V_main_arg0 (c : Dev nD) : V m c main_arg0 = m ((c : Thread nD τ).loc main_arg0) :=
  StableHlo.after_of_writes_sub (List.flatten pre) (fun b => m (c, b)) pre_writes (by decide)
theorem V_main_arg1 (c : Dev nD) : V m c main_arg1 = m ((c : Thread nD τ).loc main_arg1) :=
  StableHlo.after_of_writes_sub (List.flatten pre) (fun b => m (c, b)) pre_writes (by decide)
theorem V_main_arg2 (c : Dev nD) : V m c main_arg2 = m ((c : Thread nD τ).loc main_arg2) :=
  StableHlo.after_of_writes_sub (List.flatten pre) (fun b => m (c, b)) pre_writes (by decide)
theorem V_main_arg3 (c : Dev nD) : V m c main_arg3 = m ((c : Thread nD τ).loc main_arg3) :=
  StableHlo.after_of_writes_sub (List.flatten pre) (fun b => m (c, b)) pre_writes (by decide)
theorem V_main_arg4 (c : Dev nD) : V m c main_arg4 = m ((c : Thread nD τ).loc main_arg4) :=
  StableHlo.after_of_writes_sub (List.flatten pre) (fun b => m (c, b)) pre_writes (by decide)
theorem V_main_arg5 (c : Dev nD) : V m c main_arg5 = m ((c : Thread nD τ).loc main_arg5) :=
  StableHlo.after_of_writes_sub (List.flatten pre) (fun b => m (c, b)) pre_writes (by decide)
theorem V_main_arg6 (c : Dev nD) : V m c main_arg6 = m ((c : Thread nD τ).loc main_arg6) :=
  StableHlo.after_of_writes_sub (List.flatten pre) (fun b => m (c, b)) pre_writes (by decide)
theorem V_main_arg7 (c : Dev nD) : V m c main_arg7 = m ((c : Thread nD τ).loc main_arg7) :=
  StableHlo.after_of_writes_sub (List.flatten pre) (fun b => m (c, b)) pre_writes (by decide)
theorem V_main_arg8 (c : Dev nD) : V m c main_arg8 = m ((c : Thread nD τ).loc main_arg8) :=
  StableHlo.after_of_writes_sub (List.flatten pre) (fun b => m (c, b)) pre_writes (by decide)
theorem V_main_arg9 (c : Dev nD) : V m c main_arg9 = m ((c : Thread nD τ).loc main_arg9) :=
  StableHlo.after_of_writes_sub (List.flatten pre) (fun b => m (c, b)) pre_writes (by decide)
theorem V_main_arg10 (c : Dev nD) : V m c main_arg10 = m ((c : Thread nD τ).loc main_arg10) :=
  StableHlo.after_of_writes_sub (List.flatten pre) (fun b => m (c, b)) pre_writes (by decide)
theorem V_main_arg11 (c : Dev nD) : V m c main_arg11 = m ((c : Thread nD τ).loc main_arg11) :=
  StableHlo.after_of_writes_sub (List.flatten pre) (fun b => m (c, b)) pre_writes (by decide)
theorem V_main_arg12 (c : Dev nD) : V m c main_arg12 = m ((c : Thread nD τ).loc main_arg12) :=
  StableHlo.after_of_writes_sub (List.flatten pre) (fun b => m (c, b)) pre_writes (by decide)

end Cert.KernelIdeal.Fr

end
-- ==== Proof.KFrame.lean ====
/- The arguments end as launched.

   No host line before the call writes an argument array; none is one of the call's eight arrays; and the closing
   line writes its own result only. So whatever the call's arrays end holding, each of the thirteen argument arrays
   holds at the end what it held at launch: the frame claim of the kernel's program. -/
import proofs.«102230_j12979391169442_1_alg».proof.Proof.KRun
import proofs.«102230_j12979391169442_1_alg».proof.Proof.KArgs

noncomputable section

namespace Cert.KernelIdeal.Fr

open Cert.KernelIdeal Cert.KernelIdeal.Gen
open Idealize.ShloMosaic Idealize.ShloMosaic.TcCoe
open Idealize.SL Idealize.SL.Sem
open Idealize.ShloMosaic.Rounds
open Idealize.ShloMosaic.Pipeline (Dat)

variable {F : FTy → Type} [FloatOps F]

variable (m : (ℓ : Loc nD τ sig) → Buf (Elt F) ℓ) (ρ : Dev nD → PrngReg)

/-- A buffer that is neither the closing line's result nor one of the call's arrays holds after the closing line what
    it held when the call was reached, whatever the proof data. -/
theorem tail_keeps (dats' : (p : Fin 1) → (c : Dev nD) → Dat τ (Elt F) Unit ℕ (UR sig nD τ) ℕ (cfgs p) c) (c : Dev nD)
    (b : Ref sig .tc) (hb : b ≠ main_v53) (ha : ∀ w, Pipeline.arrRef spec0 w ≠ b) :
    Pipeline.afterTail₀ cfgs dats' 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes,
        Finset.mem_singleton]
      exact StableHlo.devRef_ne_of_ne hb)),
    Pipeline.withArrays_of_ne _ c (V0 m c) _ b ha]

theorem W_main_arg0 (dats' : (p : Fin 1) → (c : Dev nD) → Dat τ (Elt F) Unit ℕ (UR sig nD τ) ℕ (cfgs p) c) (c : Dev nD) :
    Pipeline.afterTail₀ cfgs dats' 0 (V0 m) [hostOps1] c main_arg0 = m ((c : Thread nD τ).loc main_arg0) :=
  (tail_keeps m dats' c main_arg0 (by decide) (by decide)).trans (V_main_arg0 m c)
theorem W_main_arg1 (dats' : (p : Fin 1) → (c : Dev nD) → Dat τ (Elt F) Unit ℕ (UR sig nD τ) ℕ (cfgs p) c) (c : Dev nD) :
    Pipeline.afterTail₀ cfgs dats' 0 (V0 m) [hostOps1] c main_arg1 = m ((c : Thread nD τ).loc main_arg1) :=
  (tail_keeps m dats' c main_arg1 (by decide) (by decide)).trans (V_main_arg1 m c)
theorem W_main_arg2 (dats' : (p : Fin 1) → (c : Dev nD) → Dat τ (Elt F) Unit ℕ (UR sig nD τ) ℕ (cfgs p) c) (c : Dev nD) :
    Pipeline.afterTail₀ cfgs dats' 0 (V0 m) [hostOps1] c main_arg2 = m ((c : Thread nD τ).loc main_arg2) :=
  (tail_keeps m dats' c main_arg2 (by decide) (by decide)).trans (V_main_arg2 m c)
theorem W_main_arg3 (dats' : (p : Fin 1) → (c : Dev nD) → Dat τ (Elt F) Unit ℕ (UR sig nD τ) ℕ (cfgs p) c) (c : Dev nD) :
    Pipeline.afterTail₀ cfgs dats' 0 (V0 m) [hostOps1] c main_arg3 = m ((c : Thread nD τ).loc main_arg3) :=
  (tail_keeps m dats' c main_arg3 (by decide) (by decide)).trans (V_main_arg3 m c)
theorem W_main_arg4 (dats' : (p : Fin 1) → (c : Dev nD) → Dat τ (Elt F) Unit ℕ (UR sig nD τ) ℕ (cfgs p) c) (c : Dev nD) :
    Pipeline.afterTail₀ cfgs dats' 0 (V0 m) [hostOps1] c main_arg4 = m ((c : Thread nD τ).loc main_arg4) :=
  (tail_keeps m dats' c main_arg4 (by decide) (by decide)).trans (V_main_arg4 m c)
theorem W_main_arg5 (dats' : (p : Fin 1) → (c : Dev nD) → Dat τ (Elt F) Unit ℕ (UR sig nD τ) ℕ (cfgs p) c) (c : Dev nD) :
    Pipeline.afterTail₀ cfgs dats' 0 (V0 m) [hostOps1] c main_arg5 = m ((c : Thread nD τ).loc main_arg5) :=
  (tail_keeps m dats' c main_arg5 (by decide) (by decide)).trans (V_main_arg5 m c)
theorem W_main_arg6 (dats' : (p : Fin 1) → (c : Dev nD) → Dat τ (Elt F) Unit ℕ (UR sig nD τ) ℕ (cfgs p) c) (c : Dev nD) :
    Pipeline.afterTail₀ cfgs dats' 0 (V0 m) [hostOps1] c main_arg6 = m ((c : Thread nD τ).loc main_arg6) :=
  (tail_keeps m dats' c main_arg6 (by decide) (by decide)).trans (V_main_arg6 m c)
theorem W_main_arg7 (dats' : (p : Fin 1) → (c : Dev nD) → Dat τ (Elt F) Unit ℕ (UR sig nD τ) ℕ (cfgs p) c) (c : Dev nD) :
    Pipeline.afterTail₀ cfgs dats' 0 (V0 m) [hostOps1] c main_arg7 = m ((c : Thread nD τ).loc main_arg7) :=
  (tail_keeps m dats' c main_arg7 (by decide) (by decide)).trans (V_main_arg7 m c)
theorem W_main_arg8 (dats' : (p : Fin 1) → (c : Dev nD) → Dat τ (Elt F) Unit ℕ (UR sig nD τ) ℕ (cfgs p) c) (c : Dev nD) :
    Pipeline.afterTail₀ cfgs dats' 0 (V0 m) [hostOps1] c main_arg8 = m ((c : Thread nD τ).loc main_arg8) :=
  (tail_keeps m dats' c main_arg8 (by decide) (by decide)).trans (V_main_arg8 m c)
theorem W_main_arg9 (dats' : (p : Fin 1) → (c : Dev nD) → Dat τ (Elt F) Unit ℕ (UR sig nD τ) ℕ (cfgs p) c) (c : Dev nD) :
    Pipeline.afterTail₀ cfgs dats' 0 (V0 m) [hostOps1] c main_arg9 = m ((c : Thread nD τ).loc main_arg9) :=
  (tail_keeps m dats' c main_arg9 (by decide) (by decide)).trans (V_main_arg9 m c)
theorem W_main_arg10 (dats' : (p : Fin 1) → (c : Dev nD) → Dat τ (Elt F) Unit ℕ (UR sig nD τ) ℕ (cfgs p) c) (c : Dev nD) :
    Pipeline.afterTail₀ cfgs dats' 0 (V0 m) [hostOps1] c main_arg10 = m ((c : Thread nD τ).loc main_arg10) :=
  (tail_keeps m dats' c main_arg10 (by decide) (by decide)).trans (V_main_arg10 m c)
theorem W_main_arg11 (dats' : (p : Fin 1) → (c : Dev nD) → Dat τ (Elt F) Unit ℕ (UR sig nD τ) ℕ (cfgs p) c) (c : Dev nD) :
    Pipeline.afterTail₀ cfgs dats' 0 (V0 m) [hostOps1] c main_arg11 = m ((c : Thread nD τ).loc main_arg11) :=
  (tail_keeps m dats' c main_arg11 (by decide) (by decide)).trans (V_main_arg11 m c)
theorem W_main_arg12 (dats' : (p : Fin 1) → (c : Dev nD) → Dat τ (Elt F) Unit ℕ (UR sig nD τ) ℕ (cfgs p) c) (c : Dev nD) :
    Pipeline.afterTail₀ cfgs dats' 0 (V0 m) [hostOps1] c main_arg12 = m ((c : Thread nD τ).loc main_arg12) :=
  (tail_keeps m dats' c main_arg12 (by decide) (by decide)).trans (V_main_arg12 m c)

/-- The frame claim's post from the run's: each argument array is no array of the call, so the run's post gives it at
    the closing line's reading of the contents at the call's exit, which is its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩)
    (run_main m ρ)

end Cert.KernelIdeal.Fr

end
-- ==== Proof.Glue.lean ====
/- The input matrix of the perceptron as ONE function of the seven gathered arguments.

   Rows of the four tables are picked by integer indices and laid side by side. An index below zero counts from the end
   of its table: such an index has the table's length added to it. The first two pieces are rows of the first two tables at
   the row index i. The third piece is a row of the third table at j(i), where j is an integer array read at the same row
   index and normalised the same way. The fourth piece is a row of the fourth table at the segment number of i: the
   segment starts are the running sum of the segment lengths moved one place to the right with a zero put in front; a one is
   added at every start, the running sum of those ones is taken and one is subtracted. A segment number outside the
   table's range gives a row filled with the not-a-number constant. -/
import proofs.«102230_j12979391169442_1_alg».proof.Proof.Gen.KernelIdeal

noncomputable section

namespace Cert.KernelIdeal.Hand

open Cert.KernelIdeal Cert.KernelIdeal.Gen Idealize.ShloMosaic

variable {F : FTy → Type} [FloatOps F]

/-- The 131072 x 416 input matrix from the four tables (a0: 262144 x 32, a1: 262144 x 128, a2 and a3: 1024 x 128), the
    integer array a4 of length 262144, the row indices a5 of length 131072 and the segment lengths a6 of length 1024:
    every step is the program's own step, in the program's order. -/
def glue (a0 : (⟨S262144x32, .f32⟩ : BufTy).Contents (Elt F)) (a1 : (⟨S262144x128, .f32⟩ : BufTy).Contents (Elt F))
    (a2 a3 : (⟨S1024x128, .f32⟩ : BufTy).Contents (Elt F)) (a4 : (⟨S262144, .i32⟩ : BufTy).Contents (Elt F))
    (a5 : (⟨S131072, .i32⟩ : BufTy).Contents (Elt F)) (a6 : (⟨S1024, .i32⟩ : BufTy).Contents (Elt F)) :
    (⟨S131072x416, .f32⟩ : BufTy).Contents (Elt F) :=
  -- first piece: rows of a0 at the normalised row index
  have c : (⟨S_, .i32⟩ : BufTy).Contents (Elt F) := constantI S_ 32 0#32
  have v0 : (⟨S131072, .i32⟩ : BufTy).Contents (Elt F) := broadcastInDim S131072 ![] bcast_S_S131072 c
  have v1 : (⟨S131072, .i1⟩ : BufTy).Contents (Elt F) := cmpi .slt a5 v0
  have c_0 : (⟨S_, .i32⟩ : BufTy).Contents (Elt F) := constantI S_ 32 262144#32
  have v2 : (⟨S131072, .i32⟩ : BufTy).Contents (Elt F) := broadcastInDim S131072 ![] bcast_S_S131072 c_0
  have v3 : (⟨S131072, .i32⟩ : BufTy).Contents (Elt F) := addi a5 v2
  have v4 : (⟨S131072, .i32⟩ : BufTy).Contents (Elt F) := select v1 v3 a5
  have v5 : (⟨S131072x1, .i32⟩ : BufTy).Contents (Elt F) := broadcastInDim S131072x1 ![0] bcast_S131072_S131072x1_0 v4
  have v6 : (⟨S131072x32, .f32⟩ : BufTy).Contents (Elt F) := Host.gather gather_S262144x32_S131072x1_S131072x32_1_0_n_n_0_1_132 a0 v5
  -- second piece: rows of a1 at the same index
  have c_1 : (⟨S_, .i32⟩ : BufTy).Contents (Elt F) := constantI S_ 32 0#32
  have v7 : (⟨S131072, .i32⟩ : BufTy).Contents (Elt F) := broadcastInDim S131072 ![] bcast_S_S131072 c_1
  have v8 : (⟨S131072, .i1⟩ : BufTy).Contents (Elt F) := cmpi .slt a5 v7
  have c_2 : (⟨S_, .i32⟩ : BufTy).Contents (Elt F) := constantI S_ 32 262144#32
  have v9 : (⟨S131072, .i32⟩ : BufTy).Contents (Elt F) := broadcastInDim S131072 ![] bcast_S_S131072 c_2
  have v10 : (⟨S131072, .i32⟩ : BufTy).Contents (Elt F) := addi a5 v9
  have v11 : (⟨S131072, .i32⟩ : BufTy).Contents (Elt F) := select v8 v10 a5
  have v12 : (⟨S131072x1, .i32⟩ : BufTy).Contents (Elt F) := broadcastInDim S131072x1 ![0] bcast_S131072_S131072x1_0 v11
  have v13 : (⟨S131072x128, .f32⟩ : BufTy).Contents (Elt F) := Host.gather gather_S262144x128_S131072x1_S131072x128_1_0_n_n_0_1_1128 a1 v12
  -- third piece: the integer array a4 read at the row index, normalised against 1024, picks rows of a2
  have c_3 : (⟨S_, .i32⟩ : BufTy).Contents (Elt F) := constantI S_ 32 0#32
  have v14 : (⟨S131072, .i32⟩ : BufTy).Contents (Elt F) := broadcastInDim S131072 ![] bcast_S_S131072 c_3
  have v15 : (⟨S131072, .i1⟩ : BufTy).Contents (Elt F) := cmpi .slt a5 v14
  have c_4 : (⟨S_, .i32⟩ : BufTy).Contents (Elt F) := constantI S_ 32 262144#32
  have v16 : (⟨S131072, .i32⟩ : BufTy).Contents (Elt F) := broadcastInDim S131072 ![] bcast_S_S131072 c_4
  have v17 : (⟨S131072, .i32⟩ : BufTy).Contents (Elt F) := addi a5 v16
  have v18 : (⟨S131072, .i32⟩ : BufTy).Contents (Elt F) := select v15 v17 a5
  have v19 : (⟨S131072x1, .i32⟩ : BufTy).Contents (Elt F) := broadcastInDim S131072x1 ![0] bcast_S131072_S131072x1_0 v18
  have v20 : (⟨S131072, .i32⟩ : BufTy).Contents (Elt F) := Host.gather gather_S262144_S131072x1_S131072_n_0_n_n_0_1_1 a4 v19
  have c_5 : (⟨S_, .i32⟩ : BufTy).Contents (Elt F) := constantI S_ 32 0#32
  have v21 : (⟨S131072, .i32⟩ : BufTy).Contents (Elt F) := broadcastInDim S131072 ![] bcast_S_S131072 c_5
  have v22 : (⟨S131072, .i1⟩ : BufTy).Contents (Elt F) := cmpi .slt v20 v21
  have c_6 : (⟨S_, .i32⟩ : BufTy).Contents (Elt F) := constantI S_ 32 1024#32
  have v23 : (⟨S131072, .i32⟩ : BufTy).Contents (Elt F) := broadcastInDim S131072 ![] bcast_S_S131072 c_6
  have v24 : (⟨S131072, .i32⟩ : BufTy).Contents (Elt F) := addi v20 v23
  have v25 : (⟨S131072, .i32⟩ : BufTy).Contents (Elt F) := select v22 v24 v20
  have v26 : (⟨S131072x1, .i32⟩ : BufTy).Contents (Elt F) := broadcastInDim S131072x1 ![0] bcast_S131072_S131072x1_0 v25
  have v27 : (⟨S131072x128, .f32⟩ : BufTy).Contents (Elt F) := Host.gather gather_S1024x128_S131072x1_S131072x128_1_0_n_n_0_1_1128 a2 v26
  -- the segment lengths moved one place to the right, the last one coming first
  have r_v0 : (⟨S1, .i32⟩ : BufTy).Contents (Elt F) := extractStridedSlice S1 ![1023] a6 slices_S1024_S1_1023
  have r_v1 : (⟨S1023, .i32⟩ : BufTy).Contents (Elt F) := extractStridedSlice S1023 ![0] a6 slices_S1024_S1023_0
  have v28 : (⟨S1024, .i32⟩ : BufTy).Contents (Elt F) := concatenate S1024 0 [⟨S1, r_v0⟩, ⟨S1023, r_v1⟩] concatenates_S1_S1023_S1024_d0
  -- a zero written over the first place
  have c_7 : (⟨S_, .i32⟩ : BufTy).Contents (Elt F) := constantI S_ 32 0#32
  have v29 : (⟨S1, .i32⟩ : BufTy).Contents (Elt F) := broadcastInDim S1 ![] bcast_S_S1 c_7
  have c_8 : (⟨S_, .i32⟩ : BufTy).Contents (Elt F) := constantI S_ 32 0#32
  have v30 : (⟨S1024, .i32⟩ : BufTy).Contents (Elt F) := Host.scatter scatter_S1024_S1_S__n_0_0_0 (fun _ b => b) v28 v29 c_8
  -- the running sum: the segment starts
  have s_c : (⟨S_, .i32⟩ : BufTy).Contents (Elt F) := constantI S_ 32 0#32
  have s_v0 : (⟨S_, .i32⟩ : BufTy).Contents (Elt F) := broadcastInDim S_ ![] bcast_S_S_ s_c
  have v31 : (⟨S1024, .i32⟩ : BufTy).Contents (Elt F) := Host.reduceWindow IntOp.addi ![1024] ![1] ![1023] ![0] v30 s_v0 reduceWindows_S1024_S1024_w1024s1p1023_0 h_S_
  -- a one added at every segment start (starts below zero normalised against 131072)
  have c_9 : (⟨S_, .i32⟩ : BufTy).Contents (Elt F) := constantI S_ 32 0#32
  have v32 : (⟨S131072, .i32⟩ : BufTy).Contents (Elt F) := broadcastInDim S131072 ![] bcast_S_S131072 c_9
  have c_10 : (⟨S_, .i32⟩ : BufTy).Contents (Elt F) := constantI S_ 32 0#32
  have v33 : (⟨S1024, .i32⟩ : BufTy).Contents (Elt F) := broadcastInDim S1024 ![] bcast_S_S1024 c_10
  have v34 : (⟨S1024, .i1⟩ : BufTy).Contents (Elt F) := cmpi .slt v31 v33
  have c_11 : (⟨S_, .i32⟩ : BufTy).Contents (Elt F) := constantI S_ 32 131072#32
  have v35 : (⟨S1024, .i32⟩ : BufTy).Contents (Elt F) := broadcastInDim S1024 ![] bcast_S_S1024 c_11
  have v36 : (⟨S1024, .i32⟩ : BufTy).Contents (Elt F) := addi v31 v35
  have v37 : (⟨S1024, .i32⟩ : BufTy).Contents (Elt F) := select v34 v36 v31
  have v38 : (⟨S1024x1, .i32⟩ : BufTy).Contents (Elt F) := broadcastInDim S1024x1 ![0] bcast_S1024_S1024x1_0 v37
  have c_12 : (⟨S_, .i32⟩ : BufTy).Contents (Elt F) := constantI S_ 32 1#32
  have v39 : (⟨S1024, .i32⟩ : BufTy).Contents (Elt F) := broadcastInDim S1024 ![] bcast_S_S1024 c_12
  have v40 : (⟨S131072, .i32⟩ : BufTy).Contents (Elt F) := Host.scatter scatter_S131072_S1024x1_S1024_n_0_0_1 IntOp.addi v32 v38 v39
  -- the running sum of the ones, less one: the segment number of every row
  have t_c : (⟨S_, .i32⟩ : BufTy).Contents (Elt F) := constantI S_ 32 0#32
  have t_v0 : (⟨S_, .i32⟩ : BufTy).Contents (Elt F) := broadcastInDim S_ ![] bcast_S_S_ t_c
  have v41 : (⟨S131072, .i32⟩ : BufTy).Contents (Elt F) := Host.reduceWindow IntOp.addi ![131072] ![1] ![131071] ![0] v40 t_v0 reduceWindows_S131072_S131072_w131072s1p131071_0 h_S_
  have c_13 : (⟨S_, .i32⟩ : BufTy).Contents (Elt F) := constantI S_ 32 1#32
  have v42 : (⟨S131072, .i32⟩ : BufTy).Contents (Elt F) := broadcastInDim S131072 ![] bcast_S_S131072 c_13
  have v43 : (⟨S131072, .i32⟩ : BufTy).Contents (Elt F) := subi v41 v42
  -- fourth piece: rows of a3 at the segment number normalised against 1024, the fill value where it is out of range
  have k_c : (⟨S_, .i32⟩ : BufTy).Contents (Elt F) := constantI S_ 32 0#32
  have k_v0 : (⟨S131072, .i32⟩ : BufTy).Contents (Elt F) := broadcastInDim S131072 ![] bcast_S_S131072 k_c
  have k_v1 : (⟨S131072, .i1⟩ : BufTy).Contents (Elt F) := cmpi .slt v43 k_v0
  have k_c_0 : (⟨S_, .i32⟩ : BufTy).Contents (Elt F) := constantI S_ 32 1024#32
  have k_v2 : (⟨S131072, .i32⟩ : BufTy).Contents (Elt F) := broadcastInDim S131072 ![] bcast_S_S131072 k_c_0
  have k_v3 : (⟨S131072, .i32⟩ : BufTy).Contents (Elt F) := addi v43 k_v2
  have k_v4 : (⟨S131072, .i32⟩ : BufTy).Contents (Elt F) := select k_v1 k_v3 v43
  have k_v5 : (⟨S131072x1, .i32⟩ : BufTy).Contents (Elt F) := broadcastInDim S131072x1 ![0] bcast_S131072_S131072x1_0 k_v4
  have k_c_1 : (⟨S1, .i32⟩ : BufTy).Contents (Elt F) := constantI S1 32 1023#32
  have k_c_2 : (⟨S_, .i32⟩ : BufTy).Contents (Elt F) := constantI S_ 32 0#32
  have k_v6 : (⟨S131072x1, .i32⟩ : BufTy).Contents (Elt F) := broadcastInDim S131072x1 ![] bcast_S_S131072x1 k_c_2
  have k_v7 : (⟨S131072x1, .i1⟩ : BufTy).Contents (Elt F) := cmpi .sge k_v5 k_v6
  have k_v8 : (⟨S1x1, .i32⟩ : BufTy).Contents (Elt F) := broadcastInDim S1x1 ![1] bcast_S1_S1x1_1 k_c_1
  have k_v9 : (⟨S131072x1, .i32⟩ : BufTy).Contents (Elt F) := broadcastInDim S131072x1 ![0, 1] bcast_S1x1_S131072x1_0_1 k_v8
  have k_v10 : (⟨S131072x1, .i1⟩ : BufTy).Contents (Elt F) := cmpi .sle k_v5 k_v9
  have k_v11 : (⟨S131072x1, .i1⟩ : BufTy).Contents (Elt F) := andi k_v7 k_v10
  have k_c_3 : (⟨S_, .i1⟩ : BufTy).Contents (Elt F) := constantI S_ 1 1#1
  have k_v12 : (⟨S131072, .i1⟩ : BufTy).Contents (Elt F) := Host.reduce IntOp.andi k_v11 k_c_3 reducesTo_S131072x1_S131072_d1 h_S_
  have k_v13 : (⟨S131072x128, .f32⟩ : BufTy).Contents (Elt F) := Host.gather gather_S1024x128_S131072x1_S131072x128_1_0_n_n_0_1_1128 a3 k_v5
  have k_v14 : (⟨S131072x128, .i1⟩ : BufTy).Contents (Elt F) := broadcastInDim S131072x128 ![0] bcast_S131072_S131072x128_0 k_v12
  have k_cst : (⟨S_, .f32⟩ : BufTy).Contents (Elt F) := constant (F := F) S_ .f32 0x7FC00000#32
  have k_v15 : (⟨S131072x128, .f32⟩ : BufTy).Contents (Elt F) := broadcastInDim S131072x128 ![] bcast_S_S131072x128 k_cst
  have v44 : (⟨S131072x128, .f32⟩ : BufTy).Contents (Elt F) := select k_v14 k_v13 k_v15
  -- the four pieces side by side
  concatenate S131072x416 1 [⟨S131072x32, v6⟩, ⟨S131072x128, v13⟩, ⟨S131072x128, v27⟩, ⟨S131072x128, v44⟩] concatenates_S131072x32_S131072x128_S131072x128_S131072x128_S131072x416_d1

end Cert.KernelIdeal.Hand

end
-- ==== Proof.KGlue.lean ====
/- What the call's computed arrays hold when the call is reached.

   The three weight matrices are the launch weights narrowed to the short float type, and the three biases are the launch
   biases read as matrices of one row: of the ninety-five lines before the call only one writes each of these buffers, and
   it reads an argument that no line writes. The input matrix is the one function of the first seven launch arrays that
   lays the four gathered blocks side by side: the lines that assemble it are traced back from the concatenation. -/
import proofs.«102230_j12979391169442_1_alg».proof.Proof.KEntry
import proofs.«102230_j12979391169442_1_alg».proof.Proof.Glue

noncomputable section

namespace Cert.KernelIdeal.Fr

open Cert.KernelIdeal Cert.KernelIdeal.Gen
open Idealize.ShloMosaic Idealize.ShloMosaic.TcCoe
open Idealize.SL.Sem Idealize.ShloMosaic.StableHlo

variable {F : FTy → Type} [FloatOps F]

variable (m : (ℓ : Loc nD τ sig) → Buf (Elt F) ℓ)

set_option maxHeartbeats 4000000 in
/-- The first weight matrix, narrowed. -/
theorem V_v46 (c : Dev nD) : V m c main_v46 = truncf .bf16 (m ((c : Thread nD τ).loc main_arg7)) bitsLt_bf16_f32 := by
  dsimp only [V, V0, pre]
  simp only [hostOps0, hostOps0_1, hostOps0_2, hostOps0_3, hostOps0_4, hostOps0_5, hostOps0_6, hostOps0_7, hostOps0_8,
    List.flatten_cons, List.flatten_nil, List.append_nil, List.cons_append, List.nil_append]
  after_results

set_option maxHeartbeats 4000000 in
/-- The second weight matrix, narrowed. -/
theorem V_v47 (c : Dev nD) : V m c main_v47 = truncf .bf16 (m ((c : Thread nD τ).loc main_arg9)) bitsLt_bf16_f32 := by
  dsimp only [V, V0, pre]
  simp only [hostOps0, hostOps0_1, hostOps0_2, hostOps0_3, hostOps0_4, hostOps0_5, hostOps0_6, hostOps0_7, hostOps0_8,
    List.flatten_cons, List.flatten_nil, List.append_nil, List.cons_append, List.nil_append]
  after_results

set_option maxHeartbeats 4000000 in
/-- The third weight matrix, narrowed. -/
theorem V_v48 (c : Dev nD) : V m c main_v48 = truncf .bf16 (m ((c : Thread nD τ).loc main_arg11)) bitsLt_bf16_f32 := by
  dsimp only [V, V0, pre]
  simp only [hostOps0, hostOps0_1, hostOps0_2, hostOps0_3, hostOps0_4, hostOps0_5, hostOps0_6, hostOps0_7, hostOps0_8,
    List.flatten_cons, List.flatten_nil, List.append_nil, List.cons_append, List.nil_append]
  after_results

set_option maxHeartbeats 4000000 in
/-- The first bias as a matrix of one row. -/
theorem V_v49 (c : Dev nD) : V m c main_v49 = shapeCast S1x1024 (m ((c : Thread nD τ).loc main_arg8)) shapeCasts_S1024_S1x1024 := by
  dsimp only [V, V0, pre]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

set_option maxHeartbeats 4000000 in
/-- The second bias as a matrix of one row. -/
theorem V_v50 (c : Dev nD) : V m c main_v50 = shapeCast S1x1024 (m ((c : Thread nD τ).loc main_arg10)) shapeCasts_S1024_S1x1024 := by
  dsimp only [V, V0, pre]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

set_option maxHeartbeats 4000000 in
/-- The third bias as a matrix of one row and one column. -/
theorem V_v51 (c : Dev nD) : V m c main_v51 = shapeCast S1x1 (m ((c : Thread nD τ).loc main_arg12)) shapeCasts_S1_S1x1 := by
  dsimp only [V, V0, pre]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-! ## The input matrix -/

-- the gathers, scatters, running sums and reductions are compared as wholes, never opened
attribute [local irreducible] Host.gather Host.scatter Host.reduceWindow Host.reduce

/-- Four blocks of 32, 128, 128 and 128 columns laid side by side into one matrix of 416 columns. -/
def cat4 (a : (⟨S131072x32, .f32⟩ : BufTy).Contents (Elt F)) (b c d : (⟨S131072x128, .f32⟩ : BufTy).Contents (Elt F)) :
    (⟨S131072x416, .f32⟩ : BufTy).Contents (Elt F) :=
  concatenate S131072x416 1 [⟨S131072x32, a⟩, ⟨S131072x128, b⟩, ⟨S131072x128, c⟩, ⟨S131072x128, d⟩]
    concatenates_S131072x32_S131072x128_S131072x128_S131072x128_S131072x416_d1

/-- The concatenation's result from any contents: the four blocks read at their own buffers, side by side. -/
theorem concat_result (W : Valuation τ sig (Elt F)) :
    (nary ![main_v6, main_v13, main_v27, main_v44] main_v45 (fun u => concatenate S131072x416 1 [⟨S131072x32, u 0⟩, ⟨S131072x128, u 1⟩, ⟨S131072x128, u 2⟩, ⟨S131072x128, u 3⟩] concatenates_S131072x32_S131072x128_S131072x128_S131072x128_S131072x416_d1) : HloOp τ sig (Elt F)).result W (Proc.devRef .tc main_v45)
      = cat4 (W (Proc.devRef .tc main_v6)) (W (Proc.devRef .tc main_v13)) (W (Proc.devRef .tc main_v27))
          (W (Proc.devRef .tc main_v44)) := by
  rw [nary4_result]
  rfl

set_option maxRecDepth 16384 in
set_option maxHeartbeats 8000000 in
/-- After the ninety-five lines before the call, from any contents, the matrix's buffer holds the assembled matrix of
    the seven gathered arguments. The six lines after the concatenation write other buffers; the concatenation reads
    four buffers, and each of those is traced back through the lines, a line's result at its own buffer being its
    function of its operands and at any other buffer what was there before; where a called function's line carries its
    value along an equation of types, that equation is between equal types and drops out. What is left is the same
    composition of the same steps as the one function on the right. -/
theorem glue_read (W : Valuation τ sig (Elt F)) :
    StableHlo.after (List.flatten (pre (F := F))) W (Proc.devRef .tc main_v45)
      = Cert.KernelIdeal.Hand.glue (W (Proc.devRef .tc main_arg0)) (W (Proc.devRef .tc main_arg1)) (W (Proc.devRef .tc main_arg2))
          (W (Proc.devRef .tc main_arg3)) (W (Proc.devRef .tc main_arg4)) (W (Proc.devRef .tc main_arg5))
          (W (Proc.devRef .tc main_arg6)) := by
  dsimp only [pre]
  simp only [hostOps0, hostOps0_1, hostOps0_2, hostOps0_3, hostOps0_4, hostOps0_5, hostOps0_6, hostOps0_7, hostOps0_8,
    List.flatten_cons, List.flatten_nil, List.append_nil, List.cons_append, List.nil_append]
  simp only [after_cons, after_nil]
  simp (disch := decide) only [unary_result_ne', reshape_result_ne']
  rw [concat_result]
  simp (disch := decide) only [nullary_result', unary_result', binary_result', ternary_result',
    nullary_result_ne', unary_result_ne', binary_result_ne', ternary_result_ne', TRef.toBuf, TRef.ofBuf, cast_eq]
  rfl

/-- The input matrix at the call: the assembled matrix of the first seven launch arrays. -/
theorem V_v45 (c : Dev nD) :
    V m c main_v45 = Cert.KernelIdeal.Hand.glue (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) :=
  glue_read (fun b => m (c, b))

end Cert.KernelIdeal.Fr

end
-- ==== Proof.KBlocks.lean ====
/- Where each window's block sits in its array, and that the output's blocks cover the output array.

   The grid has 128 points. At point t the first window's block is rows 1024·t … 1024·t + 1023 of the input matrix, all
   416 columns; the six parameter windows' blocks are their whole arrays at every point; and the output window's block
   is rows 1024·t … 1024·t + 1023 of the one-column output. A block's coordinate in its array is the block index times
   the block's extent plus the coordinate inside the block, on each axis. Every row a of the output lies in the block
   of the point a / 1024, and every point writes its block back, so the blocks written back cover the output. -/
import proofs.«102230_j12979391169442_1_alg».proof.Proof.KBody
import Idealize.ShloMosaic.Lib.Pipeline.Value
import Idealize.ShloMosaic.Lib.ValueIdx

noncomputable section

namespace Cert.KernelIdeal.Fr

open Cert.KernelIdeal Cert.KernelIdeal.Gen Idealize.ShloMosaic Idealize.ShloMosaic.TcCoe
open Idealize.ShloMosaic.ValueIdx Idealize.SL.Sem

variable {F : FTy → Type} [FloatOps F] (m : (ℓ : Loc nD τ sig) → Buf (Elt F) ℓ)

/-! ## The block indices -/

/-- The block index of every window at every point: (t, 0) for the input matrix and for the output, (0, 0) for the six
    parameter arrays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row r of point t's block is a row of the whole array: 128 blocks of 1024 rows make 131072 rows. -/
theorem row_lt (t : Fin cfg0.N) (r : Fin 1024) : t.val * 1024 + r.val < 131072 := by
  have ht : t.val < 128 := lt_of_lt_of_eq t.isLt N_0
  have hr : r.val < 1024 := r.isLt
  omega

/-! ## The input matrix's block -/

/-- Point t's block of the input matrix at (r, l) is the matrix at (1024·t + r, l). -/
theorem iblk0_apply (c : Dev nD) (t : Fin cfg0.N) (r : Fin 1024) (l : Fin 416) :
    iblk m c 0 t (ix2 r l) = V m c main_v45 (ix2 (⟨t.val * 1024 + r.val, row_lt t r⟩ : Fin 131072) l) := by
  show V m c main_v45 (((cfg0.win 0).blk t).view.emb (ix2 r l)) = V m c main_v45 _
  refine congrArg (V m c main_v45) ?_
  obtain ⟨e0, e1, -⟩ := index_facts t
  funext a; apply Fin.ext
  match a with
  | ⟨0, _⟩ => show win0_0.index t (0 : Fin 2) * 1024 + 1 * r.val = t.val * 1024 + r.val; omega
  | ⟨1, _⟩ => show win0_0.index t (1 : Fin 2) * 416 + 1 * l.val = l.val; omega

/-! ## The six parameter windows: each block is the whole array -/

theorem iblk1_eq (c : Dev nD) (t : Fin cfg0.N) : iblk m c 1 t = V m c main_v46 := by
  funext y
  show V m c main_v46 (((cfg0.win 1).blk t).view.emb y) = V m c main_v46 y
  refine congrArg (V m c main_v46) ?_
  obtain ⟨-, -, e0, e1, -⟩ := index_facts t
  funext a; apply Fin.ext
  match a with
  | ⟨0, _⟩ => show win0_1.index t (0 : Fin 2) * 416 + 1 * (y 0).val = (y 0).val; omega
  | ⟨1, _⟩ => show win0_1.index t (1 : Fin 2) * 1024 + 1 * (y 1).val = (y 1).val; omega

theorem iblk2_eq (c : Dev nD) (t : Fin cfg0.N) : iblk m c 2 t = V m c main_v49 := by
  funext y
  show V m c main_v49 (((cfg0.win 2).blk t).view.emb y) = V m c main_v49 y
  refine congrArg (V m c main_v49) ?_
  obtain ⟨-, -, -, -, e0, e1, -⟩ := index_facts t
  funext a; apply Fin.ext
  match a with
  | ⟨0, _⟩ => show win0_2.index t (0 : Fin 2) * 1 + 1 * (y 0).val = (y 0).val; omega
  | ⟨1, _⟩ => show win0_2.index t (1 : Fin 2) * 1024 + 1 * (y 1).val = (y 1).val; omega

theorem iblk3_eq (c : Dev nD) (t : Fin cfg0.N) : iblk m c 3 t = V m c main_v47 := by
  funext y
  show V m c main_v47 (((cfg0.win 3).blk t).view.emb y) = V m c main_v47 y
  refine congrArg (V m c main_v47) ?_
  obtain ⟨-, -, -, -, -, -, e0, e1, -⟩ := index_facts t
  funext a; apply Fin.ext
  match a with
  | ⟨0, _⟩ => show win0_3.index t (0 : Fin 2) * 1024 + 1 * (y 0).val = (y 0).val; omega
  | ⟨1, _⟩ => show win0_3.index t (1 : Fin 2) * 1024 + 1 * (y 1).val = (y 1).val; omega

theorem iblk4_eq (c : Dev nD) (t : Fin cfg0.N) : iblk m c 4 t = V m c main_v50 := by
  funext y
  show V m c main_v50 (((cfg0.win 4).blk t).view.emb y) = V m c main_v50 y
  refine congrArg (V m c main_v50) ?_
  obtain ⟨-, -, -, -, -, -, -, -, e0, e1, -⟩ := index_facts t
  funext a; apply Fin.ext
  match a with
  | ⟨0, _⟩ => show win0_4.index t (0 : Fin 2) * 1 + 1 * (y 0).val = (y 0).val; omega
  | ⟨1, _⟩ => show win0_4.index t (1 : Fin 2) * 1024 + 1 * (y 1).val = (y 1).val; omega

theorem iblk5_eq (c : Dev nD) (t : Fin cfg0.N) : iblk m c 5 t = V m c main_v48 := by
  funext y
  show V m c main_v48 (((cfg0.win 5).blk t).view.emb y) = V m c main_v48 y
  refine congrArg (V m c main_v48) ?_
  obtain ⟨-, -, -, -, -, -, -, -, -, -, e0, e1, -⟩ := index_facts t
  funext a; apply Fin.ext
  match a with
  | ⟨0, _⟩ => show win0_5.index t (0 : Fin 2) * 1024 + 1 * (y 0).val = (y 0).val; omega
  | ⟨1, _⟩ => show win0_5.index t (1 : Fin 2) * 1 + 1 * (y 1).val = (y 1).val; omega

theorem iblk6_eq (c : Dev nD) (t : Fin cfg0.N) : iblk m c 6 t = V m c main_v51 := by
  funext y
  show V m c main_v51 (((cfg0.win 6).blk t).view.emb y) = V m c main_v51 y
  refine congrArg (V m c main_v51) ?_
  obtain ⟨-, -, -, -, -, -, -, -, -, -, -, -, e0, e1, -⟩ := index_facts t
  funext a; apply Fin.ext
  match a with
  | ⟨0, _⟩ => show win0_6.index t (0 : Fin 2) * 1 + 1 * (y 0).val = (y 0).val; omega
  | ⟨1, _⟩ => show win0_6.index t (1 : Fin 2) * 1 + 1 * (y 1).val = (y 1).val; omega

/-! ## The output's blocks -/

/-- Row r of point t's output block is row 1024·t + r of the output. -/
theorem emb7_row (t : Fin cfg0.N) (r : Fin 1024) :
    (((cfg0.win 7).blk t).view.emb (ix2 r (0 : Fin 1))) 0 = (⟨t.val * 1024 + r.val, row_lt t r⟩ : Fin 131072) := by
  obtain ⟨-, -, -, -, -, -, -, -, -, -, -, -, -, -, e0, e1⟩ := index_facts t
  apply Fin.ext
  show win0_7.index t (0 : Fin 2) * 1024 + 1 * r.val = t.val * 1024 + r.val
  omega

/-- An index of the output is in point t's block iff each coordinate is in the block's range on its axis. -/
theorem mem_blk7 (t : Fin cfg0.N) (i : S131072x1.Idx) :
    i ∈ ((cfg0.win 7).blk t).view.set ↔ ∀ a : Fin 2, win0_7.index t a * S1024x1.size a ≤ (i a).val
      ∧ (i a).val < win0_7.index t a * S1024x1.size a + S1024x1.size a := by
  show i ∈ ((View.whole main_v52).slice (win0_7.rect t)).set ↔ _
  rw [View.set_slice_whole, Rect.mem_set_unit]
  exact Iff.rfl

/-- Every index of the output is in the block some point writes back: row a is in the block of point a / 1024. -/
theorem covered7 (i : S131072x1.Idx) :
    ∃ t : Fin cfg0.N, (cfg0.win 7).flush t = true ∧ i ∈ ((cfg0.win 7).blk t).view.set := by
  have hi0 : (i 0).val < 131072 := (i 0).isLt
  have hi1 : (i 1).val < 1 := (i 1).isLt
  have hq : (i 0).val / 1024 < 128 := by omega
  refine ⟨⟨(i 0).val / 1024, lt_of_lt_of_eq hq N_0.symm⟩, flush0_7 _, ?_⟩
  rw [mem_blk7]
  obtain ⟨-, -, -, -, -, -, -, -, -, -, -, -, -, -, e0, e1⟩ :=
    index_facts (⟨(i 0).val / 1024, lt_of_lt_of_eq hq N_0.symm⟩ : Fin cfg0.N)
  have e0' : win0_7.index (⟨(i 0).val / 1024, lt_of_lt_of_eq hq N_0.symm⟩ : Fin cfg0.N) (0 : Fin 2) = (i 0).val / 1024 := e0
  intro a
  match a with
  | ⟨0, _⟩ =>
    show win0_7.index _ (0 : Fin 2) * 1024 ≤ (i 0).val ∧ (i 0).val < win0_7.index _ (0 : Fin 2) * 1024 + 1024
    rw [e0']; omega
  | ⟨1, _⟩ =>
    show win0_7.index _ (1 : Fin 2) * 1 ≤ (i 1).val ∧ (i 1).val < win0_7.index _ (1 : Fin 2) * 1 + 1
    rw [e1]; omega

end Cert.KernelIdeal.Fr

end
-- ==== Proof.Spec.lean ====
/- The three-layer perceptron on one row, over the extended reals.

   A row x of 416 inputs goes through two hidden layers of 1024 units, each an affine map followed by the
   positive part, and a last affine map to one score:
     h1 j = max (sum_l x l * W1 l j + b1 j) 0,
     h2 k = max (sum_j h1 j * W2 j k + b2 k) 0,
     score = sum_k h2 k * W3 k + b3.
   Both programs compute this score for every row; the sums are finite sums of extended reals, whose addition is
   commutative and associative, so no order of summation and no tiling of the rows is visible in it. -/
import Idealize.ShloMosaic.PureOps.Ideal
import Idealize.ShloMosaic.Lib.ValueIdx

noncomputable section

namespace Cert.Mlp

open scoped BigOperators
open Idealize.ShloMosaic Idealize.ShloMosaic.ValueIdx

/-- One hidden unit of the first layer: the positive part of the row's affine image. -/
def hidden1 (x : Fin 416 → EReal) (W1 : Fin 416 → Fin 1024 → EReal) (b1 : Fin 1024 → EReal) (j : Fin 1024) : EReal :=
  max ((∑ l : Fin 416, x l * W1 l j) + b1 j) 0

/-- One hidden unit of the second layer, over the first layer's units. -/
def hidden2 (h : Fin 1024 → EReal) (W2 : Fin 1024 → Fin 1024 → EReal) (b2 : Fin 1024 → EReal) (k : Fin 1024) : EReal :=
  max ((∑ j : Fin 1024, h j * W2 j k) + b2 k) 0

/-- The row's score: the last affine map over the second layer's units. -/
def score (x : Fin 416 → EReal) (W1 : Fin 416 → Fin 1024 → EReal) (b1 : Fin 1024 → EReal)
    (W2 : Fin 1024 → Fin 1024 → EReal) (b2 : Fin 1024 → EReal) (W3 : Fin 1024 → EReal) (b3 : EReal) : EReal :=
  (∑ k : Fin 1024, hidden2 (hidden1 x W1 b1) W2 b2 k * W3 k) + b3

/-- Row `a`'s score over arrays indexed by coordinates: the input matrix's row `a`, the three weight matrices, the
    two hidden biases as vectors, the last weight matrix's one column and the last bias's one entry. -/
def scores (X : (⟨2, ![131072, 416]⟩ : Shape).Idx → EReal) (W1 : (⟨2, ![416, 1024]⟩ : Shape).Idx → EReal)
    (b1 : (⟨1, ![1024]⟩ : Shape).Idx → EReal) (W2 : (⟨2, ![1024, 1024]⟩ : Shape).Idx → EReal)
    (b2 : (⟨1, ![1024]⟩ : Shape).Idx → EReal) (W3 : (⟨2, ![1024, 1]⟩ : Shape).Idx → EReal)
    (b3 : (⟨1, ![1]⟩ : Shape).Idx → EReal) (a : Fin 131072) : EReal :=
  score (fun l => X (ix2 a l)) (fun l j => W1 (ix2 l j)) (fun j => b1 (ix1 j)) (fun j k => W2 (ix2 j k))
    (fun k => b2 (ix1 k)) (fun k => W3 (ix2 k (0 : Fin 1))) (b3 (ix1 (0 : Fin 1)))

end Cert.Mlp

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.KPayload.lean ====
/- The kernel body's one stored value, read at one row.

   The body takes a block of 1024 input rows and all the parameters, and stores a column of 1024 scores. Each of its
   three matrix products accumulates into zero, so at an entry it is the plain sum over the contracted coordinate;
   each bias is one row repeated down all rows, so at an entry it is that row's entry in the same column; the maximum
   with the zero splat is the positive part; and over the extended reals the changes of number format and the reshapes
   to the same shape change nothing. Entry by entry, then, the first hidden matrix holds the first layer's units of its
   row, the second hidden matrix the second layer's units over those, and the stored column the row's score. -/
import proofs.«102230_j12979391169442_1_alg».proof.Proof.Gen.KernelIdeal.Skeleton
import proofs.«102230_j12979391169442_1_alg».proof.Proof.Spec
import proofs.«102230_j12979391169442_1_alg».proof.Proof.LibDotPlain
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-- One hidden layer at an entry (r, j): the product into the zero accumulator is the sum over the contracted
    coordinate, the repeated bias row contributes its entry in column j, and the maximum with the zero splat is the
    maximum with 0; the narrowing of the format is the identity. -/
theorem hiddenLayer_apply {K : Nat} (d : DotDims ⟨2, ![1024, K]⟩ ⟨2, ![K, 1024]⟩ ⟨2, ![1024, 1024]⟩)
    (hlb : d.lhsBatch = []) (hrb : d.rhsBatch = []) (hlc : d.lhsContracting = [1]) (hrc : d.rhsContracting = [0])
    (hln : d.lhsNonContracting = [0]) (hrn : d.rhsNonContracting = [1])
    (a : FVec Ideal ⟨2, ![1024, K]⟩ .bf16) (w : FVec Ideal ⟨2, ![K, 1024]⟩ .bf16) (b : FVec Ideal ⟨2, ![1, 1024]⟩ .f32)
    (hbc : (⟨2, ![1, 1024]⟩ : Shape).Broadcasts ⟨2, ![1024, 1024]⟩) (hlt : FTy.bf16.bits < FTy.f32.bits)
    (r j : Fin 1024) :
    (truncf .bf16 (maximumf (addf (matmul d none a w (constant ⟨2, ![1024, 1024]⟩ .f32 0x00000000#32))
        (broadcastTo ⟨2, ![1024, 1024]⟩ b hbc))
        (broadcast ⟨2, ![1024, 1024]⟩ (Scalar.ofBits (F := Ideal) .f32 0x00000000#32))) hlt
      : FVec Ideal ⟨2, ![1024, 1024]⟩ .bf16) (ix2 r j)
      = max ((∑ k : Fin K, a (ix2 r k) * w (ix2 k j)) + b (ix2 (0 : Fin 1) j)) 0 := by
  show max (FloatOps.matmul d none a w (constant ⟨2, ![1024, 1024]⟩ .f32 0x00000000#32) (ix2 r j)
      + broadcastTo ⟨2, ![1024, 1024]⟩ b hbc (ix2 r j)) (Ideal.ofBits .f32 0x00000000#32) = _
  rw [Cert.DotPlain.matmul_zero_rows_cols d hlb hrb hlc hrc hln hrn, broadcastTo_1b_ab_apply, Ideal.ofBits_zero_f32]

/-- The last layer at the one entry of row r: the sum over the contracted coordinate plus the one bias entry. -/
theorem lastLayer_apply (d : DotDims ⟨2, ![1024, 1024]⟩ ⟨2, ![1024, 1]⟩ ⟨2, ![1024, 1]⟩)
    (hlb : d.lhsBatch = []) (hrb : d.rhsBatch = []) (hlc : d.lhsContracting = [1]) (hrc : d.rhsContracting = [0])
    (hln : d.lhsNonContracting = [0]) (hrn : d.rhsNonContracting = [1])
    (a : FVec Ideal ⟨2, ![1024, 1024]⟩ .bf16) (w : FVec Ideal ⟨2, ![1024, 1]⟩ .bf16) (b : FVec Ideal ⟨2, ![1, 1]⟩ .f32)
    (hbc : (⟨2, ![1, 1]⟩ : Shape).Broadcasts ⟨2, ![1024, 1]⟩) (r : Fin 1024) :
    addf (matmul d none a w (constant ⟨2, ![1024, 1]⟩ .f32 0x00000000#32)) (broadcastTo ⟨2, ![1024, 1]⟩ b hbc)
        (ix2 r (0 : Fin 1))
      = (∑ k : Fin 1024, a (ix2 r k) * w (ix2 k (0 : Fin 1))) + b (ix2 (0 : Fin 1) (0 : Fin 1)) := by
  show FloatOps.matmul d none a w (constant ⟨2, ![1024, 1]⟩ .f32 0x00000000#32) (ix2 r (0 : Fin 1))
      + broadcastTo ⟨2, ![1024, 1]⟩ b hbc (ix2 r (0 : Fin 1)) = _
  rw [Cert.DotPlain.matmul_zero_rows_cols d hlb hrb hlc hrc hln hrn, broadcastTo_1b_ab_apply]

/-- The stored column at row r is the row's score. -/
theorem pay_row (x0 : Vec Ideal S1024x416 .f32) (w1 : Vec Ideal S416x1024 .bf16) (b1 : Vec Ideal S1x1024 .f32)
    (w2 : Vec Ideal S1024x1024 .bf16) (b2 : Vec Ideal S1x1024 .f32) (w3 : Vec Ideal S1024x1 .bf16)
    (b3 : Vec Ideal S1x1 .f32) (r : Fin 1024) :
    k0_pay1 (F := Ideal) x0 w1 b1 w2 b2 w3 b3 (ix2 r (0 : Fin 1))
      = Cert.Mlp.score (fun l => x0 (ix2 r l)) (fun l j => w1 (ix2 l j)) (fun j => b1 (ix2 (0 : Fin 1) j))
          (fun j k => w2 (ix2 j k)) (fun k => b2 (ix2 (0 : Fin 1) k)) (fun k => w3 (ix2 k (0 : Fin 1)))
          (b3 (ix2 (0 : Fin 1) (0 : Fin 1))) := by
  unfold k0_pay1
  simp only [shapeCast_self]
  refine (lastLayer_apply _ rfl rfl rfl rfl rfl rfl _ _ _ _ r).trans ?_
  unfold Cert.Mlp.score
  refine congrArg (· + _) (Finset.sum_congr rfl fun k _ => congrArg (· * _) ?_)
  refine (hiddenLayer_apply _ rfl rfl rfl rfl rfl rfl _ _ _ _ _ r k).trans ?_
  unfold Cert.Mlp.hidden2
  refine congrArg (fun t => max (t + _) 0) (Finset.sum_congr rfl fun j _ => congrArg (· * _) ?_)
  refine (hiddenLayer_apply _ rfl rfl rfl rfl rfl rfl _ _ _ _ _ r j).trans ?_
  rfl

end Cert.KernelIdeal.Hand

end
-- ==== Proof.KValue.lean ====
/- What the kernel's program computes, at the exact reading of floats as extended reals.

   Point t of the grid stores, into rows 1024·t … 1024·t+1023 of the call's one-column output, the scores of those rows
   of the input matrix: the body's column, read at row r, is the perceptron's score of the block's row r, the block's
   row r is row 1024·t + r of the matrix, and the six parameter windows hold the whole parameter arrays at every point
   (the narrowing to bf16 is the identity here, and a bias as a one-row matrix holds the bias's entries). The 128 blocks
   cover the column, so the output array ends as the column of all rows' scores, and the closing line reads that
   column as the result vector. -/
import proofs.«102230_j12979391169442_1_alg».proof.Proof.KFrame
import proofs.«102230_j12979391169442_1_alg».proof.Proof.KGlue
import proofs.«102230_j12979391169442_1_alg».proof.Proof.KBlocks
import proofs.«102230_j12979391169442_1_alg».proof.Proof.KPayload
import proofs.«102230_j12979391169442_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

/-- Scores of rows and parameters that agree entry by entry are equal. -/
theorem Cert.Mlp.score_congr {x x' : Fin 416 → EReal} {W1 W1' : Fin 416 → Fin 1024 → EReal} {b1 b1' : Fin 1024 → EReal}
    {W2 W2' : Fin 1024 → Fin 1024 → EReal} {b2 b2' : Fin 1024 → EReal} {W3 W3' : Fin 1024 → EReal} {b3 b3' : EReal}
    (hx : ∀ l, x l = x' l) (h1 : ∀ l j, W1 l j = W1' l j) (h2 : ∀ j, b1 j = b1' j) (h3 : ∀ j k, W2 j k = W2' j k)
    (h4 : ∀ k, b2 k = b2' k) (h5 : ∀ k, W3 k = W3' k) (h6 : b3 = b3') :
    Cert.Mlp.score x W1 b1 W2 b2 W3 b3 = Cert.Mlp.score x' W1' b1' W2' b2' W3' b3' := by
  obtain rfl : x = x' := funext hx
  obtain rfl : W1 = W1' := funext fun l => funext (h1 l)
  obtain rfl : b1 = b1' := funext h2
  obtain rfl : W2 = W2' := funext fun j => funext (h3 j)
  obtain rfl : b2 = b2' := funext h4
  obtain rfl : W3 = W3' := funext h5
  subst h6
  rfl

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Rounds
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl

/-! ## The parameter windows' arrays, entry by entry -/

theorem W1_at (c : Dev nD) (l : Fin 416) (j : Fin 1024) : V m c main_v46 (ix2 l j) = (m ((c : Thread nD τ).loc main_arg7)) (ix2 l j) :=
  (congrFun (V_v46 m c) (ix2 l j)).trans (truncf_apply _ _ _)
theorem W2_at (c : Dev nD) (j : Fin 1024) (k : Fin 1024) : V m c main_v47 (ix2 j k) = (m ((c : Thread nD τ).loc main_arg9)) (ix2 j k) :=
  (congrFun (V_v47 m c) (ix2 j k)).trans (truncf_apply _ _ _)
theorem W3_at (c : Dev nD) (k : Fin 1024) : V m c main_v48 (ix2 k (0 : Fin 1)) = (m ((c : Thread nD τ).loc main_arg11)) (ix2 k (0 : Fin 1)) :=
  (congrFun (V_v48 m c) (ix2 k (0 : Fin 1))).trans (truncf_apply _ _ _)
theorem b1_at (c : Dev nD) (j : Fin 1024) : V m c main_v49 (ix2 (0 : Fin 1) j) = (m ((c : Thread nD τ).loc main_arg8)) (ix1 j) :=
  (congrFun (V_v49 m c) (ix2 (0 : Fin 1) j)).trans (shapeCast_a_1a_apply _ _ 0 j)
theorem b2_at (c : Dev nD) (k : Fin 1024) : V m c main_v50 (ix2 (0 : Fin 1) k) = (m ((c : Thread nD τ).loc main_arg10)) (ix1 k) :=
  (congrFun (V_v50 m c) (ix2 (0 : Fin 1) k)).trans (shapeCast_a_1a_apply _ _ 0 k)
theorem b3_at (c : Dev nD) : V m c main_v51 (ix2 (0 : Fin 1) (0 : Fin 1)) = (m ((c : Thread nD τ).loc main_arg12)) (ix1 (0 : Fin 1)) :=
  (congrFun (V_v51 m c) (ix2 (0 : Fin 1) (0 : Fin 1))).trans (shapeCast_a_1a_apply _ _ 0 0)

/-! ## The output array -/

/-- All rows' scores as a one-column matrix, from the launch memory: the input matrix assembled from the first seven
    arguments, the parameters the last six. -/
def scoreCol (c : Dev nD) : S131072x1.Idx → EReal := fun i =>
  Cert.Mlp.scores (Cert.KernelIdeal.Hand.glue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (i 0)

/-- What point `t` writes back is block `t` of the score column. -/
theorem flushed7_eq (c : Dev nD) (t : Fin cfg0.N) :
    (dats m 0 c).flushed 7 t = ((cfg0.win 7).blk t).view.read (Elt Ideal) (scoreCol m c) := by
  show (cfg0.win 7).cut (grid0.coords t) ((dats m 0 c).after 7 t) = _
  rw [after7]
  unfold out7
  rw [View.canon_unit_zero zero2]
  simp only [View.ld_unit_zero (S := S1024x416) zero2, View.ld_unit_zero (S := S416x1024) zero2,
    View.ld_unit_zero (S := S1x1024) zero2, View.ld_unit_zero (S := S1024x1024) zero2,
    View.ld_unit_zero (S := S1024x1) zero2, View.ld_unit_zero (S := S1x1) zero2]
  funext y
  obtain ⟨r, q, rfl⟩ : ∃ (r : Fin 1024) (q : Fin 1), y = ix2 r q := ⟨y 0, y 1, eq_ix2 y⟩
  obtain rfl : q = 0 := Subsingleton.elim _ _
  show k0_pay1 (F := Ideal) (iblk m c 0 t) (iblk m c 1 t) (iblk m c 2 t) (iblk m c 3 t) (iblk m c 4 t) (iblk m c 5 t) (iblk m c 6 t) (ix2 r (0 : Fin 1))
    = scoreCol m c (((cfg0.win 7).blk t).view.emb (ix2 r (0 : Fin 1)))
  refine (Cert.KernelIdeal.Hand.pay_row (iblk m c 0 t) (iblk m c 1 t) (iblk m c 2 t) (iblk m c 3 t) (iblk m c 4 t) (iblk m c 5 t) (iblk m c 6 t) r).trans ?_
  unfold scoreCol
  rw [emb7_row]
  unfold Cert.Mlp.scores
  exact Cert.Mlp.score_congr
    (fun l => (iblk0_apply m c t r l).trans (congrFun (V_v45 m c) _))
    (fun l j => (congrFun (iblk1_eq m c t) _).trans (W1_at m c l j))
    (fun j => (congrFun (iblk2_eq m c t) _).trans (b1_at m c j))
    (fun j k => (congrFun (iblk3_eq m c t) _).trans (W2_at m c j k))
    (fun k => (congrFun (iblk4_eq m c t) _).trans (b2_at m c k))
    (fun k => (congrFun (iblk5_eq m c t) _).trans (W3_at m c k))
    ((congrFun (iblk6_eq m c t) _).trans (b3_at m c))

/-- The output array after the run: the score column. -/
theorem final7 (c : Dev nD) : (dats m 0 c).arrAt 7 cfg0.N = scoreCol m c :=
  (dats m 0 c).arrAt_eq_of_cover 7 (scoreCol m c) (fun t _ => flushed7_eq m c t) covered7

/-! ## The result vector -/

/-- A one-column matrix read as a vector holds, at `a`, the column's entry in row `a`. -/
theorem col_apply (M : S131072x1.Idx → EReal) (a : Fin 131072) :
    shapeCast S131072 M shapeCasts_S131072x1_S131072 (ix1 a) = M (ix2 a (0 : Fin 1)) :=
  shapeCast_apply M _ _ _ (by
    rw [Shape.rowMajor_val_two, Shape.rowMajor_val_one]
    show a.val * 1 + 0 = a.val
    omega)

/-- The result buffer after the closing line: the score column read as a vector. -/
theorem tail_v53 (c : Dev nD) :
    Pipeline.afterTail₀ cfgs (dats m) 0 (V0 m) [hostOps1] c main_v53 = shapeCast S131072 (scoreCol m c) shapeCasts_S131072x1_S131072 := by
  unfold Pipeline.afterTail₀
  show StableHlo.after hostOps1 _ (Proc.devRef .tc main_v53) = _
  after_results
  rw [(Pipeline.withArrays_arr spec0 launch0.win.arr_inj c _ _ 7).trans (final7 m c)]
  rfl

/-- The kernel's program runs, its result the score column read as a vector, its arguments unchanged. -/
theorem run : θ_run defs (onTc (τ := τ) (main (F := Ideal))) ⟨m, fun _ => 0, ρ⟩ fun r => ∀ c : Dev nD,
      r.2.mem ((c.tc : Thread nD τ).loc main_v53) = shapeCast S131072 (scoreCol m c) shapeCasts_S131072x1_S131072
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨((h c).2 main_v53 (Pipeline.mem_restRefs_of main_v53 (by decide) (by decide))).trans (tail_v53 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩)
    (run_main m ρ)

end Cert.KernelIdeal.Fr

end
-- ==== Proof.RefRun.lean ====
/- The reference program's run, written out as one straight line of tensor operations.

   The program first assembles the input matrix: it gathers rows of the four feature tables by integer indices
   (negative indices wrapped by the table's height; the last table's indices come from a rolled boundary mask, two running
   sums and a scatter-add, and rows whose index leaves the table are replaced by the not-a-number splat), and lays the four
   gathered blocks side by side into a matrix of 131072 rows and 416 columns. That is `opsGlue`: 89 operations, the
   last one the concatenation. Then it applies the three-layer perceptron to that matrix: a matrix product, the bias
   repeated along the rows and added, the positive part — twice — then the last product, its bias, and the one
   column read as a vector. That is `opsMlp`: 19 operations. Where the program calls one of its own functions, the
   function's operations stand at the call, over the buffers of that call.

   The program equals the line run in order, every operation touches buffers of the one core only, and so every
   fair execution terminates with each buffer holding what the line computes from the initial contents. -/
import proofs.«102230_j12979391169442_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations that assemble the input matrix, in program order: three index wraps each followed by a gather
    (the third gather's result is itself an index vector, wrapped and used for the fourth), the roll by one of the boundary
    mask with its first entry cleared, its running sum, the scatter-add of ones at those sums, the running sum of
    that, minus one, the guarded gather of the last table, and the concatenation of the four blocks. -/
abbrev opsGlue : List (HloOp τ sig (Elt F)) :=
  [ nullary main_c (constantI S_ 32 0#32),
    unary main_c main_v0 (broadcastInDim S131072 ![] bcast_S_S131072 : (⟨S_, .i32⟩ : BufTy).Contents (Elt F) → (⟨S131072, .i32⟩ : BufTy).Contents (Elt F)),
    binary main_arg5 main_v0 main_v1 (cmpi .slt : (⟨S131072, .i32⟩ : BufTy).Contents (Elt F) → (⟨S131072, .i32⟩ : BufTy).Contents (Elt F) → (⟨S131072, .i1⟩ : BufTy).Contents (Elt F)),
    nullary main_c_0 (constantI S_ 32 262144#32),
    unary main_c_0 main_v2 (broadcastInDim S131072 ![] bcast_S_S131072 : (⟨S_, .i32⟩ : BufTy).Contents (Elt F) → (⟨S131072, .i32⟩ : BufTy).Contents (Elt F)),
    binary main_arg5 main_v2 main_v3 (addi : (⟨S131072, .i32⟩ : BufTy).Contents (Elt F) → (⟨S131072, .i32⟩ : BufTy).Contents (Elt F) → (⟨S131072, .i32⟩ : BufTy).Contents (Elt F)),
    ternary main_v1 main_v3 main_arg5 main_v4 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v4 main_v5 (broadcastInDim S131072x1 ![0] bcast_S131072_S131072x1_0 : (⟨S131072, .i32⟩ : BufTy).Contents (Elt F) → (⟨S131072x1, .i32⟩ : BufTy).Contents (Elt F)),
    binary main_arg0 main_v5 main_v6 ((fun x i => Host.gather gather_S262144x32_S131072x1_S131072x32_1_0_n_n_0_1_132 x i) : (⟨S262144x32, .f32⟩ : BufTy).Contents (Elt F) → (⟨S131072x1, .i32⟩ : BufTy).Contents (Elt F) → (⟨S131072x32, .f32⟩ : BufTy).Contents (Elt F)),
    nullary main_c_1 (constantI S_ 32 0#32),
    unary main_c_1 main_v7 (broadcastInDim S131072 ![] bcast_S_S131072 : (⟨S_, .i32⟩ : BufTy).Contents (Elt F) → (⟨S131072, .i32⟩ : BufTy).Contents (Elt F)),
    binary main_arg5 main_v7 main_v8 (cmpi .slt : (⟨S131072, .i32⟩ : BufTy).Contents (Elt F) → (⟨S131072, .i32⟩ : BufTy).Contents (Elt F) → (⟨S131072, .i1⟩ : BufTy).Contents (Elt F)),
    nullary main_c_2 (constantI S_ 32 262144#32),
    unary main_c_2 main_v9 (broadcastInDim S131072 ![] bcast_S_S131072 : (⟨S_, .i32⟩ : BufTy).Contents (Elt F) → (⟨S131072, .i32⟩ : BufTy).Contents (Elt F)),
    binary main_arg5 main_v9 main_v10 (addi : (⟨S131072, .i32⟩ : BufTy).Contents (Elt F) → (⟨S131072, .i32⟩ : BufTy).Contents (Elt F) → (⟨S131072, .i32⟩ : BufTy).Contents (Elt F)),
    ternary main_v8 main_v10 main_arg5 main_v11 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v11 main_v12 (broadcastInDim S131072x1 ![0] bcast_S131072_S131072x1_0 : (⟨S131072, .i32⟩ : BufTy).Contents (Elt F) → (⟨S131072x1, .i32⟩ : BufTy).Contents (Elt F)),
    binary main_arg1 main_v12 main_v13 ((fun x i => Host.gather gather_S262144x128_S131072x1_S131072x128_1_0_n_n_0_1_1128 x i) : (⟨S262144x128, .f32⟩ : BufTy).Contents (Elt F) → (⟨S131072x1, .i32⟩ : BufTy).Contents (Elt F) → (⟨S131072x128, .f32⟩ : BufTy).Contents (Elt F)),
    nullary main_c_3 (constantI S_ 32 0#32),
    unary main_c_3 main_v14 (broadcastInDim S131072 ![] bcast_S_S131072 : (⟨S_, .i32⟩ : BufTy).Contents (Elt F) → (⟨S131072, .i32⟩ : BufTy).Contents (Elt F)),
    binary main_arg5 main_v14 main_v15 (cmpi .slt : (⟨S131072, .i32⟩ : BufTy).Contents (Elt F) → (⟨S131072, .i32⟩ : BufTy).Contents (Elt F) → (⟨S131072, .i1⟩ : BufTy).Contents (Elt F)),
    nullary main_c_4 (constantI S_ 32 262144#32),
    unary main_c_4 main_v16 (broadcastInDim S131072 ![] bcast_S_S131072 : (⟨S_, .i32⟩ : BufTy).Contents (Elt F) → (⟨S131072, .i32⟩ : BufTy).Contents (Elt F)),
    binary main_arg5 main_v16 main_v17 (addi : (⟨S131072, .i32⟩ : BufTy).Contents (Elt F) → (⟨S131072, .i32⟩ : BufTy).Contents (Elt F) → (⟨S131072, .i32⟩ : BufTy).Contents (Elt F)),
    ternary main_v15 main_v17 main_arg5 main_v18 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v18 main_v19 (broadcastInDim S131072x1 ![0] bcast_S131072_S131072x1_0 : (⟨S131072, .i32⟩ : BufTy).Contents (Elt F) → (⟨S131072x1, .i32⟩ : BufTy).Contents (Elt F)),
    binary main_arg4 main_v19 main_v20 ((fun x i => Host.gather gather_S262144_S131072x1_S131072_n_0_n_n_0_1_1 x i) : (⟨S262144, .i32⟩ : BufTy).Contents (Elt F) → (⟨S131072x1, .i32⟩ : BufTy).Contents (Elt F) → (⟨S131072, .i32⟩ : BufTy).Contents (Elt F)),
    nullary main_c_5 (constantI S_ 32 0#32),
    unary main_c_5 main_v21 (broadcastInDim S131072 ![] bcast_S_S131072 : (⟨S_, .i32⟩ : BufTy).Contents (Elt F) → (⟨S131072, .i32⟩ : BufTy).Contents (Elt F)),
    binary main_v20 main_v21 main_v22 (cmpi .slt : (⟨S131072, .i32⟩ : BufTy).Contents (Elt F) → (⟨S131072, .i32⟩ : BufTy).Contents (Elt F) → (⟨S131072, .i1⟩ : BufTy).Contents (Elt F)),
    nullary main_c_6 (constantI S_ 32 1024#32),
    unary main_c_6 main_v23 (broadcastInDim S131072 ![] bcast_S_S131072 : (⟨S_, .i32⟩ : BufTy).Contents (Elt F) → (⟨S131072, .i32⟩ : BufTy).Contents (Elt F)),
    binary main_v20 main_v23 main_v24 (addi : (⟨S131072, .i32⟩ : BufTy).Contents (Elt F) → (⟨S131072, .i32⟩ : BufTy).Contents (Elt F) → (⟨S131072, .i32⟩ : BufTy).Contents (Elt F)),
    ternary main_v22 main_v24 main_v20 main_v25 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v25 main_v26 (broadcastInDim S131072x1 ![0] bcast_S131072_S131072x1_0 : (⟨S131072, .i32⟩ : BufTy).Contents (Elt F) → (⟨S131072x1, .i32⟩ : BufTy).Contents (Elt F)),
    binary main_arg2 main_v26 main_v27 ((fun x i => Host.gather gather_S1024x128_S131072x1_S131072x128_1_0_n_n_0_1_1128 x i) : (⟨S1024x128, .f32⟩ : BufTy).Contents (Elt F) → (⟨S131072x1, .i32⟩ : BufTy).Contents (Elt F) → (⟨S131072x128, .f32⟩ : BufTy).Contents (Elt F)),
    TRef.unary (.of main_arg6 : TRef sig ⟨S1024, .i32⟩) main_call0.v0 (extractStridedSlice S1 ![1023] · slices_S1024_S1_1023),
    TRef.unary (.of main_arg6 : TRef sig ⟨S1024, .i32⟩) main_call0.v1 (extractStridedSlice S1023 ![0] · slices_S1024_S1023_0),
    TRef.binary main_call0.v0 main_call0.v1 main_call0.v2 (fun a b => concatenate S1024 0 [⟨S1, a⟩, ⟨S1023, b⟩] concatenates_S1_S1023_S1024_d0),
    nullary main_c_7 (constantI S_ 32 0#32),
    unary main_c_7 main_v29 (broadcastInDim S1 ![] bcast_S_S1 : (⟨S_, .i32⟩ : BufTy).Contents (Elt F) → (⟨S1, .i32⟩ : BufTy).Contents (Elt F)),
    nullary main_c_8 (constantI S_ 32 0#32),
    ternary main_v28 main_v29 main_c_8 main_v30 ((fun x i u => Host.scatter scatter_S1024_S1_S__n_0_0_0 (fun _ b => b) x i u) : (⟨S1024, .i32⟩ : BufTy).Contents (Elt F) → (⟨S1, .i32⟩ : BufTy).Contents (Elt F) → (⟨S_, .i32⟩ : BufTy).Contents (Elt F) → (⟨S1024, .i32⟩ : BufTy).Contents (Elt F)),
    TRef.nullary main_call1.call0.c (constantI S_ 32 0#32),
    TRef.unary main_call1.call0.c main_call1.call0.v0 (broadcastInDim S_ ![] bcast_S_S_),
    TRef.binary (.of main_v30 : TRef sig ⟨S1024, .i32⟩) main_call1.call0.v0 main_call1.call0.v1 (fun x v => Host.reduceWindow IntOp.addi ![1024] ![1] ![1023] ![0] x v reduceWindows_S1024_S1024_w1024s1p1023_0 h_S_),
    nullary main_c_9 (constantI S_ 32 0#32),
    unary main_c_9 main_v32 (broadcastInDim S131072 ![] bcast_S_S131072 : (⟨S_, .i32⟩ : BufTy).Contents (Elt F) → (⟨S131072, .i32⟩ : BufTy).Contents (Elt F)),
    nullary main_c_10 (constantI S_ 32 0#32),
    unary main_c_10 main_v33 (broadcastInDim S1024 ![] bcast_S_S1024 : (⟨S_, .i32⟩ : BufTy).Contents (Elt F) → (⟨S1024, .i32⟩ : BufTy).Contents (Elt F)),
    binary main_v31 main_v33 main_v34 (cmpi .slt : (⟨S1024, .i32⟩ : BufTy).Contents (Elt F) → (⟨S1024, .i32⟩ : BufTy).Contents (Elt F) → (⟨S1024, .i1⟩ : BufTy).Contents (Elt F)),
    nullary main_c_11 (constantI S_ 32 131072#32),
    unary main_c_11 main_v35 (broadcastInDim S1024 ![] bcast_S_S1024 : (⟨S_, .i32⟩ : BufTy).Contents (Elt F) → (⟨S1024, .i32⟩ : BufTy).Contents (Elt F)),
    binary main_v31 main_v35 main_v36 (addi : (⟨S1024, .i32⟩ : BufTy).Contents (Elt F) → (⟨S1024, .i32⟩ : BufTy).Contents (Elt F) → (⟨S1024, .i32⟩ : BufTy).Contents (Elt F)),
    ternary main_v34 main_v36 main_v31 main_v37 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v37 main_v38 (broadcastInDim S1024x1 ![0] bcast_S1024_S1024x1_0 : (⟨S1024, .i32⟩ : BufTy).Contents (Elt F) → (⟨S1024x1, .i32⟩ : BufTy).Contents (Elt F)),
    nullary main_c_12 (constantI S_ 32 1#32),
    unary main_c_12 main_v39 (broadcastInDim S1024 ![] bcast_S_S1024 : (⟨S_, .i32⟩ : BufTy).Contents (Elt F) → (⟨S1024, .i32⟩ : BufTy).Contents (Elt F)),
    ternary main_v32 main_v38 main_v39 main_v40 ((fun x i u => Host.scatter scatter_S131072_S1024x1_S1024_n_0_0_1 IntOp.addi x i u) : (⟨S131072, .i32⟩ : BufTy).Contents (Elt F) → (⟨S1024x1, .i32⟩ : BufTy).Contents (Elt F) → (⟨S1024, .i32⟩ : BufTy).Contents (Elt F) → (⟨S131072, .i32⟩ : BufTy).Contents (Elt F)),
    TRef.nullary main_call2.call0.c (constantI S_ 32 0#32),
    TRef.unary main_call2.call0.c main_call2.call0.v0 (broadcastInDim S_ ![] bcast_S_S_),
    TRef.binary (.of main_v40 : TRef sig ⟨S131072, .i32⟩) main_call2.call0.v0 main_call2.call0.v1 (fun x v => Host.reduceWindow IntOp.addi ![131072] ![1] ![131071] ![0] x v reduceWindows_S131072_S131072_w131072s1p131071_0 h_S_),
    nullary main_c_13 (constantI S_ 32 1#32),
    unary main_c_13 main_v42 (broadcastInDim S131072 ![] bcast_S_S131072 : (⟨S_, .i32⟩ : BufTy).Contents (Elt F) → (⟨S131072, .i32⟩ : BufTy).Contents (Elt F)),
    binary main_v41 main_v42 main_v43 (subi : (⟨S131072, .i32⟩ : BufTy).Contents (Elt F) → (⟨S131072, .i32⟩ : BufTy).Contents (Elt F) → (⟨S131072, .i32⟩ : BufTy).Contents (Elt F)),
    TRef.nullary main_call3.c (constantI S_ 32 0#32),
    TRef.unary main_call3.c main_call3.v0 (broadcastInDim S131072 ![] bcast_S_S131072),
    TRef.binary (.of main_v43 : TRef sig ⟨S131072, .i32⟩) main_call3.v0 main_call3.v1 (cmpi .slt),
    TRef.nullary main_call3.c_0 (constantI S_ 32 1024#32),
    TRef.unary main_call3.c_0 main_call3.v2 (broadcastInDim S131072 ![] bcast_S_S131072),
    TRef.binary (.of main_v43 : TRef sig ⟨S131072, .i32⟩) main_call3.v2 main_call3.v3 addi,
    TRef.ternary main_call3.v1 main_call3.v3 (.of main_v43 : TRef sig ⟨S131072, .i32⟩) main_call3.call0.v0 select,
    TRef.unary main_call3.call0.v0 main_call3.v5 (broadcastInDim S131072x1 ![0] bcast_S131072_S131072x1_0),
    TRef.nullary main_call3.c_1 (constantI S1 32 1023#32),
    TRef.nullary main_call3.c_2 (constantI S_ 32 0#32),
    TRef.unary main_call3.c_2 main_call3.v6 (broadcastInDim S131072x1 ![] bcast_S_S131072x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S131072x1 ![0, 1] bcast_S1x1_S131072x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S131072x1_S131072_d1 h_S_),
    TRef.binary (.of main_arg3 : TRef sig ⟨S1024x128, .f32⟩) main_call3.v5 main_call3.v13 (fun x i => Host.gather gather_S1024x128_S131072x1_S131072x128_1_0_n_n_0_1_1128 x i),
    TRef.unary main_call3.v12 main_call3.v14 (broadcastInDim S131072x128 ![0] bcast_S131072_S131072x128_0),
    TRef.nullary main_call3.cst (constant S_ .f32 0x7FC00000#32),
    TRef.unary main_call3.cst main_call3.v15 (broadcastInDim S131072x128 ![] bcast_S_S131072x128),
    TRef.ternary main_call3.v14 main_call3.v13 main_call3.v15 main_call3.v16 select,
    nary ![main_v6, main_v13, main_v27, main_v44] main_v45 (fun u => concatenate S131072x416 1 [⟨S131072x32, u 0⟩, ⟨S131072x128, u 1⟩, ⟨S131072x128, u 2⟩, ⟨S131072x128, u 3⟩] concatenates_S131072x32_S131072x128_S131072x128_S131072x128_S131072x416_d1) ]

/-- The perceptron's operations, in program order: product, bias along the rows, sum, positive part (zero, its
    splat, the maximum) — twice — then product, bias, sum, and the column as a vector. -/
abbrev opsMlp : List (HloOp τ sig (Elt F)) :=
  [ binary main_v45 main_arg7 main_v46 ((fun l r => Host.dotGeneral dot_S131072x416_S416x1024_S131072x1024_1_0_0_1_n_n none l r) : (⟨S131072x416, .f32⟩ : BufTy).Contents (Elt F) → (⟨S416x1024, .f32⟩ : BufTy).Contents (Elt F) → (⟨S131072x1024, .f32⟩ : BufTy).Contents (Elt F)),
    unary main_arg8 main_v47 (broadcastInDim S1x1024 ![1] bcast_S1024_S1x1024_1 : (⟨S1024, .f32⟩ : BufTy).Contents (Elt F) → (⟨S1x1024, .f32⟩ : BufTy).Contents (Elt F)),
    unary main_v47 main_v48 (broadcastInDim S131072x1024 ![0, 1] bcast_S1x1024_S131072x1024_0_1 : (⟨S1x1024, .f32⟩ : BufTy).Contents (Elt F) → (⟨S131072x1024, .f32⟩ : BufTy).Contents (Elt F)),
    binary main_v46 main_v48 main_v49 (addf : (⟨S131072x1024, .f32⟩ : BufTy).Contents (Elt F) → (⟨S131072x1024, .f32⟩ : BufTy).Contents (Elt F) → (⟨S131072x1024, .f32⟩ : BufTy).Contents (Elt F)),
    TRef.nullary main_call4.cst (constant S_ .f32 0x00000000#32),
    TRef.unary main_call4.cst main_call4.v0 (broadcastInDim S131072x1024 ![] bcast_S_S131072x1024),
    TRef.binary (.of main_v49 : TRef sig ⟨S131072x1024, .f32⟩) main_call4.v0 main_call4.v1 maximumf,
    binary main_v50 main_arg9 main_v51 ((fun l r => Host.dotGeneral dot_S131072x1024_S1024x1024_S131072x1024_1_0_0_1_n_n none l r) : (⟨S131072x1024, .f32⟩ : BufTy).Contents (Elt F) → (⟨S1024x1024, .f32⟩ : BufTy).Contents (Elt F) → (⟨S131072x1024, .f32⟩ : BufTy).Contents (Elt F)),
    unary main_arg10 main_v52 (broadcastInDim S1x1024 ![1] bcast_S1024_S1x1024_1 : (⟨S1024, .f32⟩ : BufTy).Contents (Elt F) → (⟨S1x1024, .f32⟩ : BufTy).Contents (Elt F)),
    unary main_v52 main_v53 (broadcastInDim S131072x1024 ![0, 1] bcast_S1x1024_S131072x1024_0_1 : (⟨S1x1024, .f32⟩ : BufTy).Contents (Elt F) → (⟨S131072x1024, .f32⟩ : BufTy).Contents (Elt F)),
    binary main_v51 main_v53 main_v54 (addf : (⟨S131072x1024, .f32⟩ : BufTy).Contents (Elt F) → (⟨S131072x1024, .f32⟩ : BufTy).Contents (Elt F) → (⟨S131072x1024, .f32⟩ : BufTy).Contents (Elt F)),
    TRef.nullary main_call5.cst (constant S_ .f32 0x00000000#32),
    TRef.unary main_call5.cst main_call5.v0 (broadcastInDim S131072x1024 ![] bcast_S_S131072x1024),
    TRef.binary (.of main_v54 : TRef sig ⟨S131072x1024, .f32⟩) main_call5.v0 main_call5.v1 maximumf,
    binary main_v55 main_arg11 main_v56 ((fun l r => Host.dotGeneral dot_S131072x1024_S1024x1_S131072x1_1_0_0_1_n_n none l r) : (⟨S131072x1024, .f32⟩ : BufTy).Contents (Elt F) → (⟨S1024x1, .f32⟩ : BufTy).Contents (Elt F) → (⟨S131072x1, .f32⟩ : BufTy).Contents (Elt F)),
    unary main_arg12 main_v57 (broadcastInDim S1x1 ![1] bcast_S1_S1x1_1 : (⟨S1, .f32⟩ : BufTy).Contents (Elt F) → (⟨S1x1, .f32⟩ : BufTy).Contents (Elt F)),
    unary main_v57 main_v58 (broadcastInDim S131072x1 ![0, 1] bcast_S1x1_S131072x1_0_1 : (⟨S1x1, .f32⟩ : BufTy).Contents (Elt F) → (⟨S131072x1, .f32⟩ : BufTy).Contents (Elt F)),
    binary main_v56 main_v58 main_v59 (addf : (⟨S131072x1, .f32⟩ : BufTy).Contents (Elt F) → (⟨S131072x1, .f32⟩ : BufTy).Contents (Elt F) → (⟨S131072x1, .f32⟩ : BufTy).Contents (Elt F)),
    reshape main_v59 main_v60 rfl shapeCasts_S131072x1_S131072 ]

-- one hundred and eight sequencing steps re-associated: the rewriting recurses once per statement
set_option maxRecDepth 8192 in
set_option maxHeartbeats 4000000 in
/-- The program is that straight line: with each called function's definition opened at its call, both sides are one
    chain of operation steps once the sequencing is re-associated to the right. -/
theorem main_eq (c : Dev nD) : main (F := F) c = seq (opsGlue ++ opsMlp) := by
  simp only [main, main_part0, main_part1, fn_roll_static.body, fn_cumsum.body, fn_cumsum_0.body, fn_cumsum_1.body,
    fn_cumsum_2.body, fn_take.body, fn_where.body, fn_relu.body, List.cons_append, List.nil_append, seq, bind_assoc, pure_bind]

/-- No buffer of the core is scoped: all are tensor values of the program. -/
theorem scopedRefs_eq : (Finset.univ.filter fun b : Ref sig .tc => b.isScoped) = ∅ := by decide
/-- The program has no semaphore, so none is scoped. -/
theorem scopedSems_eq : (Finset.univ.filter fun sm : SemLoc sig => sm.isScoped .tc) = ∅ := by decide

/-- Every assembling operation touches buffers of the one core only. -/
theorem opsGlue_sub : (opsGlue : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., nullary_bufs_sub .., ternary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nary_bufs_sub ..⟩

/-- Every operation of the perceptron touches buffers of the one core only. -/
theorem opsMlp_sub : (opsMlp : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩

theorem ops_sub : (opsGlue ++ opsMlp : List (HloOp τ sig (Elt F))).Forall fun op => op.bufs ⊆ tcRefs τ sig :=
  List.forall_append.mpr ⟨opsGlue_sub, opsMlp_sub⟩

/-- Running two lines one after the other from contents `V`: the second runs from what the first leaves. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

/-- For any float values, from any memory with zero counters: every fair execution of the program terminates, and
    every buffer of the core ends at what the perceptron's line computes from what the assembling line leaves. -/
theorem run_all (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = StableHlo.after opsMlp (StableHlo.after opsGlue (StableHlo.launchContents m c)) (Proc.devRef .tc b) := by
  have h := run_seq scopedRefs_eq scopedSems_eq defs (main (F := F)) (fun _ => opsGlue ++ opsMlp) main_eq (fun _ => ops_sub) m ρ
  simpa only [after_concat] using h

end Cert.ReferenceIdeal.Hand

end
-- ==== Proof.RefMlpDef.lean ====
/- What the reference computes after it has assembled the input matrix: three matrix products, each followed by the
   addition of its bias along the rows, the first two also by the positive part (the maximum with zero), and the last
   column read as a vector. Stated as one function of the input matrix and the six parameter arrays, at any float
   instance, in the reference's own operations. -/
import proofs.«102230_j12979391169442_1_alg».proof.Proof.Gen.ReferenceIdeal

noncomputable section

namespace Cert.ReferenceIdeal.Hand

open Cert.ReferenceIdeal Cert.ReferenceIdeal.Gen Idealize.ShloMosaic

variable {F : FTy → Type} [FloatOps F]

/-- The positive part of every entry, as the reference writes it: the maximum with the zero splat. -/
def posPart (x : (⟨S131072x1024, .f32⟩ : BufTy).Contents (Elt F)) : (⟨S131072x1024, .f32⟩ : BufTy).Contents (Elt F) :=
  maximumf x (broadcastInDim S131072x1024 ![] bcast_S_S131072x1024 (constant (F := F) S_ .f32 0x00000000#32))

/-- A bias vector of 1024 entries repeated along all rows. -/
def biasRows (b : (⟨S1024, .f32⟩ : BufTy).Contents (Elt F)) : (⟨S131072x1024, .f32⟩ : BufTy).Contents (Elt F) :=
  broadcastInDim S131072x1024 ![0, 1] bcast_S1x1024_S131072x1024_0_1 (broadcastInDim S1x1024 ![1] bcast_S1024_S1x1024_1 b)

/-- The scores of all rows from the input matrix `X` and the parameters. -/
def refMlp (X : (⟨S131072x416, .f32⟩ : BufTy).Contents (Elt F)) (W1 : (⟨S416x1024, .f32⟩ : BufTy).Contents (Elt F))
    (b1 : (⟨S1024, .f32⟩ : BufTy).Contents (Elt F)) (W2 : (⟨S1024x1024, .f32⟩ : BufTy).Contents (Elt F))
    (b2 : (⟨S1024, .f32⟩ : BufTy).Contents (Elt F)) (W3 : (⟨S1024x1, .f32⟩ : BufTy).Contents (Elt F))
    (b3 : (⟨S1, .f32⟩ : BufTy).Contents (Elt F)) : (⟨S131072, .f32⟩ : BufTy).Contents (Elt F) :=
  shapeCast S131072
    (addf
      (Host.dotGeneral dot_S131072x1024_S1024x1_S131072x1_1_0_0_1_n_n none
        (posPart (addf
          (Host.dotGeneral dot_S131072x1024_S1024x1024_S131072x1024_1_0_0_1_n_n none
            (posPart (addf (Host.dotGeneral dot_S131072x416_S416x1024_S131072x1024_1_0_0_1_n_n none X W1) (biasRows b1)))
            W2)
          (biasRows b2)))
        W3)
      (broadcastInDim S131072x1 ![0, 1] bcast_S1x1_S131072x1_0_1 (broadcastInDim S1x1 ![1] bcast_S1_S1x1_1 b3)))
    shapeCasts_S131072x1_S131072

end Cert.ReferenceIdeal.Hand

end
-- ==== Proof.RefRead.lean ====
/- What the reference program's buffers hold at the end, read off its straight line of operations.

   The line has two parts. The first assembles the input matrix: read at the matrix's buffer it is the one function
   of the seven gathered arguments that lays the four gathered blocks side by side, and it leaves every argument as
   it was. The second is the perceptron: read at the result's buffer it is the three products with their biases and
   positive parts applied to the assembled matrix and the six parameter arrays, and it too leaves every argument as
   it was. Each read is a computation: an operation's result at its own buffer is its function of its operands'
   contents, and at any other buffer what was there before. Put together with the run of the line, every fair
   execution ends with the result equal to the perceptron of the assembled matrix and all thirteen arguments unchanged. -/
import proofs.«102230_j12979391169442_1_alg».proof.Proof.RefRun
import proofs.«102230_j12979391169442_1_alg».proof.Proof.RefMlpDef
import proofs.«102230_j12979391169442_1_alg».proof.Proof.Glue

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The thirteen argument buffers, in order. -/
abbrev argRef : Fin 13 → Ref sig .tc :=
  ![main_arg0, main_arg1, main_arg2, main_arg3, main_arg4, main_arg5, main_arg6, main_arg7, main_arg8, main_arg9, main_arg10,
    main_arg11, main_arg12]

-- the gathers, scatters, running sums and reductions are compared as wholes, never opened
attribute [local irreducible] Host.gather Host.scatter Host.reduceWindow Host.reduce

/-! ## The perceptron's part -/

set_option maxRecDepth 8192 in
set_option maxHeartbeats 4000000 in
/-- After the perceptron's operations the result buffer holds the perceptron of the matrix's and the parameters'
    contents: each operation's result rewritten at its own buffer, the rest is the same term. -/
theorem mlp_read (W : Valuation τ sig (Elt F)) :
    StableHlo.after opsMlp W (Proc.devRef .tc main_v60)
      = refMlp (W (Proc.devRef .tc main_v45)) (W (Proc.devRef .tc main_arg7)) (W (Proc.devRef .tc main_arg8))
          (W (Proc.devRef .tc main_arg9)) (W (Proc.devRef .tc main_arg10)) (W (Proc.devRef .tc main_arg11))
          (W (Proc.devRef .tc main_arg12)) := by
  after_results_simp
  rfl

set_option maxRecDepth 8192 in
set_option maxHeartbeats 4000000 in
/-- The perceptron's operations write none of the arguments. -/
theorem mlp_keeps (W : Valuation τ sig (Elt F)) (k : Fin 13) :
    StableHlo.after opsMlp W (Proc.devRef .tc (argRef k)) = W (Proc.devRef .tc (argRef k)) := by
  fin_cases k <;> after_results_simp

/-! ## The assembling part -/

/-- Four blocks of 32, 128, 128 and 128 columns laid side by side into one matrix of 416 columns. -/
def cat4 (a : (⟨S131072x32, .f32⟩ : BufTy).Contents (Elt F)) (b c d : (⟨S131072x128, .f32⟩ : BufTy).Contents (Elt F)) :
    (⟨S131072x416, .f32⟩ : BufTy).Contents (Elt F) :=
  concatenate S131072x416 1 [⟨S131072x32, a⟩, ⟨S131072x128, b⟩, ⟨S131072x128, c⟩, ⟨S131072x128, d⟩]
    concatenates_S131072x32_S131072x128_S131072x128_S131072x128_S131072x416_d1

/-- The concatenation's result from any contents: the four blocks read at their own buffers, side by side. -/
theorem concat_result (V : Valuation τ sig (Elt F)) :
    (nary ![main_v6, main_v13, main_v27, main_v44] main_v45 (fun u => concatenate S131072x416 1 [⟨S131072x32, u 0⟩, ⟨S131072x128, u 1⟩, ⟨S131072x128, u 2⟩, ⟨S131072x128, u 3⟩] concatenates_S131072x32_S131072x128_S131072x128_S131072x128_S131072x416_d1) : HloOp τ sig (Elt F)).result V (Proc.devRef .tc main_v45)
      = cat4 (V (Proc.devRef .tc main_v6)) (V (Proc.devRef .tc main_v13)) (V (Proc.devRef .tc main_v27))
          (V (Proc.devRef .tc main_v44)) := by
  rw [nary4_result]
  rfl

set_option maxRecDepth 16384 in
set_option maxHeartbeats 4000000 in
/-- After the assembling operations the matrix's buffer holds the assembled matrix of the seven gathered arguments.
    The last operation is the concatenation of four buffers; each of those is traced back through the line, an
    operation's result at its own buffer being its function of its operands, and where a called function's operation
    carries its value along an equation of types that equation is between equal types and drops out. What is left
    is the same composition of the same steps as the one function on the right. -/
theorem glue_read (W : Valuation τ sig (Elt F)) :
    StableHlo.after opsGlue W (Proc.devRef .tc main_v45)
      = Cert.KernelIdeal.Hand.glue (W (Proc.devRef .tc main_arg0)) (W (Proc.devRef .tc main_arg1)) (W (Proc.devRef .tc main_arg2))
          (W (Proc.devRef .tc main_arg3)) (W (Proc.devRef .tc main_arg4)) (W (Proc.devRef .tc main_arg5))
          (W (Proc.devRef .tc main_arg6)) := by
  simp only [after_cons, after_nil]
  rw [concat_result]
  simp (disch := decide) only [nullary_result', unary_result', binary_result', ternary_result',
    nullary_result_ne', unary_result_ne', binary_result_ne', ternary_result_ne', TRef.toBuf, TRef.ofBuf, cast_eq]
  rfl

set_option maxRecDepth 16384 in
set_option maxHeartbeats 8000000 in
/-- The assembling operations write none of the arguments. -/
theorem glue_keeps (W : Valuation τ sig (Elt F)) (k : Fin 13) :
    StableHlo.after opsGlue W (Proc.devRef .tc (argRef k)) = W (Proc.devRef .tc (argRef k)) := by
  fin_cases k <;> after_results_simp

/-! ## The whole line, and the run -/

/-- Both parts in a row leave every argument as it was. -/
theorem line_keeps (W : Valuation τ sig (Elt F)) (k : Fin 13) :
    StableHlo.after opsMlp (StableHlo.after opsGlue W) (Proc.devRef .tc (argRef k)) = W (Proc.devRef .tc (argRef k)) :=
  (mlp_keeps _ k).trans (glue_keeps W k)

/-- Both parts in a row leave at the result's buffer the perceptron of the assembled matrix. -/
theorem line_read (W : Valuation τ sig (Elt F)) :
    StableHlo.after opsMlp (StableHlo.after opsGlue W) (Proc.devRef .tc main_v60)
      = refMlp (Cert.KernelIdeal.Hand.glue (W (Proc.devRef .tc main_arg0)) (W (Proc.devRef .tc main_arg1)) (W (Proc.devRef .tc main_arg2))
            (W (Proc.devRef .tc main_arg3)) (W (Proc.devRef .tc main_arg4)) (W (Proc.devRef .tc main_arg5))
            (W (Proc.devRef .tc main_arg6)))
          (W (Proc.devRef .tc main_arg7)) (W (Proc.devRef .tc main_arg8)) (W (Proc.devRef .tc main_arg9))
          (W (Proc.devRef .tc main_arg10)) (W (Proc.devRef .tc main_arg11)) (W (Proc.devRef .tc main_arg12)) := by
  rw [mlp_read, glue_read]
  exact congr (congr (congr (congr (congr (congrArg (refMlp _) (glue_keeps W 7)) (glue_keeps W 8)) (glue_keeps W 9))
    (glue_keeps W 10)) (glue_keeps W 11)) (glue_keeps W 12)

/-- For any float values, from any memory with zero counters: every fair execution of the reference terminates with
    its result the perceptron of the assembled matrix of the arguments' initial contents, and the thirteen arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v60)
        = refMlp (Cert.KernelIdeal.Hand.glue (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)))
            (m ((c.tc : Thread nD τ).loc main_arg7)) (m ((c.tc : Thread nD τ).loc main_arg8))
            (m ((c.tc : Thread nD τ).loc main_arg9)) (m ((c.tc : Thread nD τ).loc main_arg10))
            (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v60).trans (line_read _),
      (h c main_arg0).trans (line_keeps _ 0),
      (h c main_arg1).trans (line_keeps _ 1),
      (h c main_arg2).trans (line_keeps _ 2),
      (h c main_arg3).trans (line_keeps _ 3),
      (h c main_arg4).trans (line_keeps _ 4),
      (h c main_arg5).trans (line_keeps _ 5),
      (h c main_arg6).trans (line_keeps _ 6),
      (h c main_arg7).trans (line_keeps _ 7),
      (h c main_arg8).trans (line_keeps _ 8),
      (h c main_arg9).trans (line_keeps _ 9),
      (h c main_arg10).trans (line_keeps _ 10),
      (h c main_arg11).trans (line_keeps _ 11),
      (h c main_arg12).trans (line_keeps _ 12)⟩)
    (run_all m ρ)

end Cert.ReferenceIdeal.Hand

end
-- ==== Proof.RefMlpRow.lean ====
/- The reference's arithmetic after the input matrix is assembled, read at one row.

   Each of its three matrix products is, at an entry, the plain sum over the contracted coordinate. A bias vector is
   first laid out as one row and that row then repeated down all rows, so at an entry it is the vector's entry in the
   same column. The maximum with the zero splat is the positive part. The last reshape reads the one column as a vector:
   position a of the vector is entry (a, 0) of the matrix. Entry by entry, then, the first hidden matrix holds the first
   layer's units of its row, the second hidden matrix the second layer's units over those, and the result at a is row
   a's score. -/
import proofs.«102230_j12979391169442_1_alg».proof.Proof.RefMlpDef
import proofs.«102230_j12979391169442_1_alg».proof.Proof.Spec
import proofs.«102230_j12979391169442_1_alg».proof.Proof.LibDotPlain
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Hand

open Cert.ReferenceIdeal Cert.ReferenceIdeal.Gen Idealize.ShloMosaic Idealize.ShloMosaic.ValueIdx
open scoped BigOperators

/-- A bias vector repeated along all rows reads, at (a, j), the vector's entry j. -/
theorem biasRows_apply (b : (⟨S1024, .f32⟩ : BufTy).Contents (Elt Ideal)) (a : Fin 131072) (j : Fin 1024) :
    biasRows (F := Ideal) b (ix2 a j) = b (ix1 j) := by
  unfold biasRows
  refine (broadcastInDim_apply _ _ _ (ix2 a j) (ix2 (0 : Fin 1) j) fun ax => ?_).trans ?_
  · match ax with
    | ⟨0, _⟩ => rfl
    | ⟨1, _⟩ => rfl
  · refine broadcastInDim_apply _ _ _ (ix2 (0 : Fin 1) j) (ix1 j) fun ax => ?_
    match ax with
    | ⟨0, _⟩ => rfl

/-- The positive part at an entry is the maximum of the entry with 0. -/
theorem posPart_apply (x : (⟨S131072x1024, .f32⟩ : BufTy).Contents (Elt Ideal)) (i : S131072x1024.Idx) :
    posPart (F := Ideal) x i = max (x i) 0 := by
  show max (x i) (Ideal.ofBits .f32 0x00000000#32) = _
  rw [Ideal.ofBits_zero_f32]

/-- One hidden layer at an entry (a, j): the positive part of the sum over the contracted coordinate plus the bias's
    entry j. -/
theorem hiddenRows_apply {K : Nat} (d : DotDims ⟨2, ![131072, K]⟩ ⟨2, ![K, 1024]⟩ ⟨2, ![131072, 1024]⟩)
    (hlb : d.lhsBatch = []) (hrb : d.rhsBatch = []) (hlc : d.lhsContracting = [1]) (hrc : d.rhsContracting = [0])
    (hln : d.lhsNonContracting = [0]) (hrn : d.rhsNonContracting = [1])
    (A : FVec Ideal ⟨2, ![131072, K]⟩ .f32) (W : FVec Ideal ⟨2, ![K, 1024]⟩ .f32)
    (b : (⟨S1024, .f32⟩ : BufTy).Contents (Elt Ideal)) (a : Fin 131072) (j : Fin 1024) :
    posPart (F := Ideal) (addf (Host.dotGeneral d none A W) (biasRows b)) (ix2 a j)
      = max ((∑ k : Fin K, A (ix2 a k) * W (ix2 k j)) + b (ix1 j)) 0 := by
  rw [posPart_apply]
  show max (FloatOps.dotGeneral d none .single A W (ix2 a j) + biasRows (F := Ideal) b (ix2 a j)) 0 = _
  rw [Cert.DotPlain.dotGeneral_rows_cols d hlb hrb hlc hrc hln hrn, biasRows_apply]

/-- The last bias, one entry laid out as a one-by-one matrix and repeated down the rows, reads that entry. -/
theorem lastBias_apply (b : (⟨S1, .f32⟩ : BufTy).Contents (Elt Ideal)) (a : Fin 131072) :
    broadcastInDim S131072x1 ![0, 1] bcast_S1x1_S131072x1_0_1 (broadcastInDim S1x1 ![1] bcast_S1_S1x1_1 b)
        (ix2 a (0 : Fin 1)) = b (ix1 (0 : Fin 1)) := by
  refine (broadcastInDim_apply _ _ _ (ix2 a (0 : Fin 1)) (ix2 (0 : Fin 1) (0 : Fin 1)) fun ax => ?_).trans ?_
  · match ax with
    | ⟨0, _⟩ => rfl
    | ⟨1, _⟩ => rfl
  · refine broadcastInDim_apply _ _ _ (ix2 (0 : Fin 1) (0 : Fin 1)) (ix1 (0 : Fin 1)) fun ax => ?_
    match ax with
    | ⟨0, _⟩ => rfl

/-- A one-column matrix read as a vector: position a is entry (a, 0). -/
theorem column_apply {α : Type} (M : S131072x1.Idx → α) (h : S131072x1.ShapeCasts S131072) (a : Fin 131072) :
    shapeCast S131072 M h (ix1 a) = M (ix2 a (0 : Fin 1)) :=
  shapeCast_apply M h _ _ (by
    rw [Shape.rowMajor_val_two, Shape.rowMajor_val_one]
    show a.val * 1 + 0 = a.val
    omega)

/-- The reference's result at a is row a's score. -/
theorem refMlp_row (X : (⟨S131072x416, .f32⟩ : BufTy).Contents (Elt Ideal))
    (W1 : (⟨S416x1024, .f32⟩ : BufTy).Contents (Elt Ideal)) (b1 : (⟨S1024, .f32⟩ : BufTy).Contents (Elt Ideal))
    (W2 : (⟨S1024x1024, .f32⟩ : BufTy).Contents (Elt Ideal)) (b2 : (⟨S1024, .f32⟩ : BufTy).Contents (Elt Ideal))
    (W3 : (⟨S1024x1, .f32⟩ : BufTy).Contents (Elt Ideal)) (b3 : (⟨S1, .f32⟩ : BufTy).Contents (Elt Ideal))
    (a : Fin 131072) :
    refMlp (F := Ideal) X W1 b1 W2 b2 W3 b3 (ix1 a) = Cert.Mlp.scores X W1 b1 W2 b2 W3 b3 a := by
  unfold refMlp
  refine (column_apply _ _ a).trans ?_
  refine (addf_apply _ _ _).trans ?_
  rw [lastBias_apply]
  unfold Cert.Mlp.scores Cert.Mlp.score
  refine congrArg (· + _) ?_
  refine (Cert.DotPlain.dotGeneral_rows_cols _ rfl rfl rfl rfl rfl rfl none .single _ _ a (0 : Fin 1)).trans ?_
  refine Finset.sum_congr rfl fun k _ => congrArg (· * _) ?_
  refine (hiddenRows_apply _ rfl rfl rfl rfl rfl rfl _ _ _ a k).trans ?_
  unfold Cert.Mlp.hidden2
  refine congrArg (fun t => max (t + _) 0) (Finset.sum_congr rfl fun j _ => congrArg (· * _) ?_)
  exact hiddenRows_apply _ rfl rfl rfl rfl rfl rfl _ _ _ a j

end Cert.ReferenceIdeal.Hand

end
-- ==== Proof.Bridge.lean ====
/- The two programs' results are one vector.

   The kernel's program ends with the column of all rows' scores read as a vector; the reference ends with the same
   three affine maps and positive parts applied to the same input matrix, written with whole-matrix products. Entry a of
   either is the perceptron's score of row a of the input matrix, so the two vectors are equal. -/
import proofs.«102230_j12979391169442_1_alg».proof.Proof.KValue
import proofs.«102230_j12979391169442_1_alg».proof.Proof.RefMlpRow

noncomputable section

namespace Cert.Bridge

open Idealize.ShloMosaic Idealize.ShloMosaic.TcCoe Idealize.ShloMosaic.ValueIdx Idealize.SL.Sem

/-- The kernel's result vector, from the kernel's launch memory, is the reference's function of the same arrays. -/
theorem result_eq (m : (ℓ : Loc Cert.KernelIdeal.nD Cert.KernelIdeal.τ Cert.KernelIdeal.sig) → Buf (Elt Ideal) ℓ) (c : Dev Cert.KernelIdeal.nD) :
    shapeCast Cert.KernelIdeal.S131072 (Cert.KernelIdeal.Fr.scoreCol m c) Cert.KernelIdeal.Gen.shapeCasts_S131072x1_S131072
      = Cert.ReferenceIdeal.Hand.refMlp (F := Ideal)
          (Cert.KernelIdeal.Hand.glue (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)))
          (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) := by
  funext i
  obtain ⟨a, rfl⟩ : ∃ a : Fin 131072, i = ix1 a := ⟨i 0, eq_ix1 i⟩
  rw [Cert.KernelIdeal.Fr.col_apply]
  exact (Cert.ReferenceIdeal.Hand.refMlp_row _ _ _ _ _ _ _ a).symm

end Cert.Bridge

end
-- ==== Proof.lean ====
/- The kernel and its reference compute the same scores.

   Both programs assemble one input matrix from gathered rows of the node features, node embeddings, graph embeddings
   and global embeddings, and score every row with a three-layer perceptron: two hidden layers of 1024 units with the
   positive part, and one output. The kernel does the perceptron in a call tiled over blocks of 1024 rows, with the
   weights narrowed to bf16 (the identity at the exact reading) and the products accumulated from zero; the reference
   writes whole-matrix products. Over the extended reals a finite sum does not depend on its order or tiling, so row by
   row both are the same score, and no finiteness of the inputs is used.

   The frames: each program terminates without a fault and leaves its thirteen argument arrays as launched — for the two
   kernel programs because no host line writes an argument, no argument is one of the call's arrays and the closing
   line writes only its result; for the reference because it is a straight line of host operations none of which writes
   an argument. The idealization rewrote no operation, so nothing is owed for it. -/
import proofs.«102230_j12979391169442_1_alg».proof.Defs
import proofs.«102230_j12979391169442_1_alg».proof.Proof.Gen.Kernel
import proofs.«102230_j12979391169442_1_alg».proof.Proof.Gen.KernelIdeal
import proofs.«102230_j12979391169442_1_alg».proof.Proof.Gen.ReferenceIdeal
import proofs.«102230_j12979391169442_1_alg».proof.Proof.Gen.Pre_finite_inputs
import proofs.«102230_j12979391169442_1_alg».proof.Proof.BFrame
import proofs.«102230_j12979391169442_1_alg».proof.Proof.KFrame
import proofs.«102230_j12979391169442_1_alg».proof.Proof.KValue
import proofs.«102230_j12979391169442_1_alg».proof.Proof.RefRead
import proofs.«102230_j12979391169442_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Hand.run (F := Ideal) m ρ)

/-- From memories that agree on the arguments both programs run, and the reference's result is the kernel's: the
    reference's function of its arrays is, after rewriting them to the kernel's, the kernel's score vector. -/
theorem algebraic : Cert.algebraic_KernelIdeal_ReferenceIdeal := by
  intro m ρ m' ρ' _ hagree
  refine ⟨_, Cert.KernelIdeal.Fr.run m ρ, ?_⟩
  refine (θ_run Cert.ReferenceIdeal.defs _ _).mono (fun _ h c => ⟨(h c).1.trans ?_, (h c).2⟩)
    (Cert.ReferenceIdeal.Hand.run (F := Ideal) m' ρ')
  obtain ⟨h0, h1, h2, h3, h4, h5, h6, h7, h8, h9, h10, h11, h12⟩ := hagree c
  rw [h0, h1, h2, h3, h4, h5, h6, h7, h8, h9, h10, h11, h12]
  exact (Cert.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
